-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![256, 256]⟩ ⟨2, ![512, 256]⟩ (Layout.meshBlock [2, 2, 2] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S256x256 : Shape := ⟨2, ![256, 256]⟩
abbrev S_ : Shape := ⟨0, ![]⟩

class Facts : Prop where
  bcast_S_S256x256 : S_.BroadcastsInDim S256x256 (![] : Fin 0 → Fin S256x256.rank)
  reducesTo_S256x256_S_d0_1 : S256x256.ReducesTo [0, 1] S_
  h_S_ : 0 < S_.numel

variable [Facts]

def fn {F : FTy → Type} [FloatOps F] (main_arg0 : FVec F S256x256 .f32) : IVec S_ 1 :=
  let main_v0 : FVec F S256x256 .f32 := Host.absf main_arg0
  let main_cst : FVec F S_ .f32 := constant S_ .f32 0x7F800000#32
  let main_v1 : FVec F S256x256 .f32 := broadcastInDim S256x256 ![] bcast_S_S256x256 main_cst
  let main_v2 : IVec S256x256 1 := cmpf .olt main_v0 main_v1
  let main_c : IVec S_ 1 := constantI S_ 1 1#1
  let main_v3 : IVec S_ 1 := (fun x v => Host.reduce IntOp.andi x v reducesTo_S256x256_S_d0_1 h_S_) main_v2 main_c
  main_v3
-- ==== Pre_finite_inputs_ReferenceIdeal.lean ====
abbrev S512x256 : Shape := ⟨2, ![512, 256]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel

variable [Facts]

def fn {F : FTy → Type} [FloatOps F] (main_arg0 : FVec F S512x256 .f32) : IVec S_ 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  main_v3
-- ==== Kernel.lean ====
abbrev S256x256 : Shape := ⟨2, ![256, 256]⟩
abbrev S2 : Shape := ⟨1, ![2]⟩
abbrev S_ : Shape := ⟨0, ![]⟩
abbrev S1 : Shape := ⟨1, ![1]⟩
abbrev S128x256 : Shape := ⟨2, ![128, 256]⟩

abbrev nBuf : Space → Nat
  | .hbm => 2
  | .vmem => 3
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  (ofTc nBuf bufTy 1 6 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_5 : BitVec 32 := 4#32
  let v11 : BitVec 32 := Scalar.muli v2 c4_i32_5
  let v12 : BitVec 32 := Scalar.addi c0_i32 v11
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_6 : BitVec 32 := 2#32
  let v13 : BitVec 32 := Scalar.muli v9 c2_i32_6
  let v14 : BitVec 32 := Scalar.addi v12 v13
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_7 : BitVec 32 := 1#32
  let v15 : BitVec 32 := Scalar.muli v8 c1_i32_7
  let v16 : BitVec 32 := Scalar.addi v14 v15
  v16.toNat
def k0_dev2 (d0 : Dev nD) : Nat :=
  let c0_i32_12 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_11 : BitVec 32 := 4#32
  let v17 : BitVec 32 := Scalar.muli v2 c4_i32_11
  let v18 : BitVec 32 := Scalar.addi c0_i32_12 v17
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_13 : BitVec 32 := 2#32
  let v19 : BitVec 32 := Scalar.muli v9 c2_i32_13
  let v20 : BitVec 32 := Scalar.addi v18 v19
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_14 : BitVec 32 := 1#32
  let v21 : BitVec 32 := Scalar.muli v8 c1_i32_14
  let v22 : BitVec 32 := Scalar.addi v20 v21
  v22.toNat
def k0_dev3 (d0 : Dev nD) : Nat :=
  let c0_i32_22 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_21 : BitVec 32 := 4#32
  let v29 : BitVec 32 := Scalar.muli v2 c4_i32_21
  let v30 : BitVec 32 := Scalar.addi c0_i32_22 v29
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_23 : BitVec 32 := 2#32
  let v31 : BitVec 32 := Scalar.muli v9 c2_i32_23
  let v32 : BitVec 32 := Scalar.addi v30 v31
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_24 : BitVec 32 := 1#32
  let v33 : BitVec 32 := Scalar.muli v8 c1_i32_24
  let v34 : BitVec 32 := Scalar.addi v32 v33
  v34.toNat
abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S2_S1_0 : ∀ a, (![0] : Fin 1 → Nat) a + S1.size a ≤ S2.size a
  squeezes_S1_S_ : S1.Squeezes S_
  inb_S256x256_S128x256_0_0 : ∀ a, (![0, 0] : Fin 2 → Nat) a + S128x256.size a ≤ S256x256.size a
  inb_S2_S1_1 : ∀ a, (![1] : Fin 1 → Nat) a + S1.size a ≤ S2.size a
  inb_S256x256_S128x256_128_0 : ∀ a, (![128, 0] : Fin 2 → Nat) a + S128x256.size a ≤ S256x256.size a
  h_S128x256 : 0 < S128x256.numel
  shapeCasts_S128x256_S128x256 : S128x256.ShapeCasts S128x256
  hcc0_scratch1 : 2 + S2.numel ≤ 6
  hcc0_scratch2 : 4 + S2.numel ≤ 6
  k0_dev1_lt : ∀ d0 : Dev nD, (k0_dev1 d0) < nD
  k0_dev2_lt : ∀ d0 : Dev nD, (k0_dev2 d0) < nD
  k0_dev3_lt : ∀ d0 : Dev nD, (k0_dev3 d0) < nD
  hstage0_0 : ∀ j, (stage0_0 j).IsWhole
  hstage0_1 : ∀ j, (stage0_1 j).IsWhole

variable [Facts₀]

abbrev cc0_scratch1 : DmaSems sig S2 := SemArray.consecutive 2 S2 hcc0_scratch1
abbrev cc0_scratch2 : DmaSems sig S2 := SemArray.consecutive 4 S2 hcc0_scratch2

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S512x256 : Shape := ⟨2, ![512, 256]⟩
abbrev S2x256x256 : Shape := ⟨3, ![2, 256, 256]⟩
abbrev S_ : Shape := ⟨0, ![]⟩
abbrev S256x256 : Shape := ⟨2, ![256, 256]⟩

abbrev nBuf : Space → Nat
  | .hbm => 4
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S2x256x256, .f32⟩
  | .hbm, ⟨2, _⟩ => ⟨S_, .f32⟩
  | .hbm, ⟨3, _⟩ => ⟨S256x256, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  shapeCasts_S512x256_S2x256x256 : S512x256.ShapeCasts S2x256x256
  reducesTo_S2x256x256_S256x256_d0 : S2x256x256.ReducesTo [0] S256x256
  h_S_ : 0 < S_.numel

variable [Facts₀]

class Facts : Prop extends Facts₀ where

variable [Facts]
-- ==== Proof.KernelBase.lean ====
/-
The objects the run of the all-reduce kernel is stated over: the partner of a device on the mesh, the
three VMEM buffers a device's kernel instance works in and their halves (rows 0..127 and 128..255), and
the semaphores of the exchange.
-/
import proofs.«900503_g7700000000000504_dist_ar_v7x_xyz2x2x2_y_m256_n256_f32_1_alg».proof.Proof.Gen.Kernel
import proofs.«900503_g7700000000000504_dist_ar_v7x_xyz2x2x2_y_m256_n256_f32_1_alg».proof.Proof.Gen.Kernel.Skeleton
import proofs.«900503_g7700000000000504_dist_ar_v7x_xyz2x2x2_y_m256_n256_f32_1_alg».proof.Proof.Gen.Kernel.Launch
import Idealize.ShloMosaic.Lib.Pipeline.Launch
import Idealize.ShloMosaic.Lib.Pipeline.Kit
import Idealize.ShloMosaic.Lib.Tactic

noncomputable section

namespace Cert.KernelRun

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The partner on mesh axis y

Device `c` sits at mesh coordinates (c / 4, c / 2 % 2, c % 2); its partner has the middle coordinate
flipped and the other two kept, which on the linear id is adding or removing 2. -/

def peer (c : Dev nD) : Dev nD :=
  ⟨(4 * (c.val / 4) + (c.val % 2) + 2) - 2 * ((c.val / 2) % 2), by have h : c.val < 8 := c.isLt; show _ < 8; omega⟩

theorem peer_peer (c : Dev nD) : peer (peer c) = c := by revert c; decide
theorem peer_ne (c : Dev nD) : peer c ≠ c := by revert c; decide

/-- The three device ids the kernel computes (for its signal and its two copies) all name the partner. -/
theorem dev1_eq (c : Dev nD) : (⟨k0_dev1 c, Facts₀.k0_dev1_lt c⟩ : Dev nD) = peer c := Fin.ext (k0_dev1_eq c)
theorem dev2_eq (c : Dev nD) : (⟨k0_dev2 c, Facts₀.k0_dev2_lt c⟩ : Dev nD) = peer c := Fin.ext (k0_dev2_eq c)
theorem dev3_eq (c : Dev nD) : (⟨k0_dev3 c, Facts₀.k0_dev3_lt c⟩ : Dev nD) = peer c := Fin.ext (k0_dev3_eq c)

def flip : Dev nD ≃ Dev nD := ⟨peer, peer, peer_peer, peer_peer⟩

/-! ## Buffers, halves, semaphores -/

/-- The device's block of the input (staged), the result block (staged), the landing buffer. -/
abbrev xM : Memref sig .tc .vmem S256x256 .f32 := Memref.whole cc0_stg0_0
abbrev oM : Memref sig .tc .vmem S256x256 .f32 := Memref.whole cc0_stg1_0
abbrev rM : Memref sig .tc .vmem S256x256 .f32 := Memref.whole cc0_scratch0

/-- Rows 0..127 and rows 128..255 of a 256x256 buffer. -/
abbrev rc0 : Rect S256x256 := Rect.unit (s := S256x256) ![0, 0] S128x256.size Facts₀.inb_S256x256_S128x256_0_0
abbrev rc1 : Rect S256x256 := Rect.unit (s := S256x256) ![128, 0] S128x256.size Facts₀.inb_S256x256_S128x256_128_0

abbrev xS0 : Memref sig .tc .vmem S128x256 .f32 := xM.slice rc0 (fun _ => rfl)
abbrev xS1 : Memref sig .tc .vmem S128x256 .f32 := xM.slice rc1 (fun _ => rfl)
abbrev rS0 : Memref sig .tc .vmem S128x256 .f32 := rM.slice rc0 (fun _ => rfl)
abbrev rS1 : Memref sig .tc .vmem S128x256 .f32 := rM.slice rc1 (fun _ => rfl)

/-- The runtime's barrier semaphore of collective id 0; the send and the receive semaphore of each half. -/
abbrev barS : Sem sig := (SemArray.scalar (sig.barrier 0 rfl) : Sems sig S_).sem
abbrev snd0 : DmaSem sig := ((cc0_scratch1.slice (Rect.unit (s := S2) ![0] S1.size Facts₀.inb_S2_S1_0)).squeeze S_ Facts₀.squeezes_S1_S_).sem
abbrev snd1 : DmaSem sig := ((cc0_scratch1.slice (Rect.unit (s := S2) ![1] S1.size Facts₀.inb_S2_S1_1)).squeeze S_ Facts₀.squeezes_S1_S_).sem
abbrev rcv0 : DmaSem sig := ((cc0_scratch2.slice (Rect.unit (s := S2) ![0] S1.size Facts₀.inb_S2_S1_0)).squeeze S_ Facts₀.squeezes_S1_S_).sem
abbrev rcv1 : DmaSem sig := ((cc0_scratch2.slice (Rect.unit (s := S2) ![1] S1.size Facts₀.inb_S2_S1_1)).squeeze S_ Facts₀.squeezes_S1_S_).sem

theorem snd0_eq : snd0 = (2 : DmaSem sig) := by decide
theorem snd1_eq : snd1 = (3 : DmaSem sig) := by decide
theorem rcv0_eq : rcv0 = (4 : DmaSem sig) := by decide
theorem rcv1_eq : rcv1 = (5 : DmaSem sig) := by decide

end Cert.KernelRun

end
-- ==== Proof.KernelSched.lean ====
/-
The exchange protocol of the all-reduce kernel, as a schedule of rounds.

Every device c has five semaphores in play: the barrier semaphore, on which its partner announces that
it has entered the kernel, and for each half k of the block a send semaphore (credited when the device's
own copy of half k has been read out of its input block) and a receive semaphore (credited when the
partner's copy of half k has landed in its landing buffer). Each of the five cells has exactly one duty,
in round 0. What a duty hands its cell's owner:
  * barrier cell of c, paid by the partner's signal: both halves of the PARTNER's landing buffer, at
    whatever they hold, and the fact that the partner's two receive cells are at round 0 — what c
    needs in order to copy into them;
  * receive cell k of c, paid by the partner's copy: half k of c's landing buffer holding half k of
    the partner's input block;
  * send cell k of c, paid by c's own copy: the share of half k of c's input block that was lent
    to the copy.
-/
import proofs.«900503_g7700000000000504_dist_ar_v7x_xyz2x2x2_y_m256_n256_f32_1_alg».proof.Proof.KernelBase

noncomputable section

namespace Cert.KernelRun

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy beside the exchange's -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Cells -/

abbrev barCell (c : Dev nD) : GSem nD τ sig := ((c : Thread nD τ), .reg barS)
abbrev sndCell0 (c : Dev nD) : GSem nD τ sig := ((c : Thread nD τ), .dma snd0)
abbrev sndCell1 (c : Dev nD) : GSem nD τ sig := ((c : Thread nD τ), .dma snd1)
abbrev rcvCell0 (c : Dev nD) : GSem nD τ sig := ((c : Thread nD τ), .dma rcv0)
abbrev rcvCell1 (c : Dev nD) : GSem nD τ sig := ((c : Thread nD τ), .dma rcv1)

/-- The kernel's own (scoped) semaphores: the two send and the two receive semaphores; -/
abbrev osem : Fin 4 → SemLoc sig := fun | 0 => .dma snd0 | 1 => .dma snd1 | 2 => .dma rcv0 | 3 => .dma rcv1
/-- all five of the exchange, the barrier semaphore first. -/
abbrev csem : Fin 5 → SemLoc sig := fun | 0 => .reg barS | 1 => .dma snd0 | 2 => .dma snd1 | 3 => .dma rcv0 | 4 => .dma rcv1
abbrev kcell (ck : Dev nD × Fin 5) : GSem nD τ sig := ((ck.1 : Thread nD τ), csem ck.2)

/-- What a copy of one half credits its two semaphores with. -/
abbrev N : ℕ := (rS0 : Memref sig .tc .vmem S128x256 .f32).view.dmaCredit
theorem N_pos : 0 < N := View.dmaCredit_pos _ (by decide)
theorem N_eq1 : (rS1 : Memref sig .tc .vmem S128x256 .f32).view.dmaCredit = N := rfl

/-! ## Contents -/

/-- Device c's block of the input, as the pipeline stages it. -/
def xstg (c : Dev nD) : (cc0_stg0_0 : Ref sig .tc).ty.Contents (Elt F) :=
  (win0_0.blk (0 : Fin 1)).view.read (Elt F) ((s₀ m ρ).mem ((c : Thread nD τ).loc main_arg0))

/-- What lands in device c's landing buffer: its partner's block. -/
def landed (c : Dev nD) : Buf (Elt F) ((rM : Memref sig .tc .vmem S256x256 .f32).view.loc (c : Thread nD τ)) := xstg m ρ (peer c)

/-! ## The schedule -/

def barPay (c : Dev nD) : sProp 𝕄 :=
  iprop((∃ f, (rS0 : Memref sig .tc .vmem S128x256 .f32).view.loc (peer c : Thread nD τ) ↦[(rS0 : Memref sig .tc .vmem S128x256 .f32).view.set]{fullShare} f)
    ∗ (∃ f, (rS1 : Memref sig .tc .vmem S128x256 .f32).view.loc (peer c : Thread nD τ) ↦[(rS1 : Memref sig .tc .vmem S128x256 .f32).view.set]{fullShare} f))

abbrev IsBar (g : GSem nD τ sig) : Prop := g.1.2 = .tc ∧ g.2 = .reg barS
abbrev IsXfer (g : GSem nD τ sig) : Prop :=
  g.1.2 = .tc ∧ (g.2 = .dma snd0 ∨ g.2 = .dma snd1 ∨ g.2 = .dma rcv0 ∨ g.2 = .dma rcv1)

/-- One round, round 0, one duty a cell: a barrier cell's of one unit, a send or receive cell's of a half's credit. -/
def xrd : Rounds.Schedule (GSem nD τ sig) Unit 𝕄 where
  duties g r := if r = 0 ∧ (IsBar g ∨ IsXfer g) then {()} else ∅
  unitless _ := False
  amount g _ _ := if g.2 = .reg barS then 1 else N
  payload g _ _ :=
    if g.2 = .reg barS then barPay g.1.1
    else if g.2 = .dma rcv0 then
      ((rS0 : Memref sig .tc .vmem S128x256 .f32).view.loc (g.1.1 : Thread nD τ) ↦[(rS0 : Memref sig .tc .vmem S128x256 .f32).view.set]{fullShare} landed m ρ g.1.1)
    else if g.2 = .dma rcv1 then
      ((rS1 : Memref sig .tc .vmem S128x256 .f32).view.loc (g.1.1 : Thread nD τ) ↦[(rS1 : Memref sig .tc .vmem S128x256 .f32).view.set]{fullShare} landed m ρ g.1.1)
    else if g.2 = .dma snd0 then
      ((xS0 : Memref sig .tc .vmem S128x256 .f32).view.loc (g.1.1 : Thread nD τ) ↦[(xS0 : Memref sig .tc .vmem S128x256 .f32).view.set]{fullShare.right} xstg m ρ g.1.1)
    else if g.2 = .dma snd1 then
      ((xS1 : Memref sig .tc .vmem S128x256 .f32).view.loc (g.1.1 : Thread nD τ) ↦[(xS1 : Memref sig .tc .vmem S128x256 .f32).view.set]{fullShare.right} xstg m ρ g.1.1)
    else iprop(emp)
  amount_pos g _ _ _ := by
    by_cases h : g.2 = .reg barS
    · rw [if_pos h]; exact Nat.one_pos
    · rw [if_neg h]; exact N_pos

instance xrd_payload_storable (g : GSem nD τ sig) (r : ℕ) (d : Unit) :
    BI.Storable (upEmb : UEmb _ 𝕄) ((xrd (F := F) m ρ).payload g r d) := by
  dsimp only [xrd]
  unfold barPay
  (repeat' split) <;> infer_instance

section Sched
variable (c : Dev nD)

theorem snd0_ne_bar : (SemLoc.dma snd0 : SemLoc sig) ≠ .reg barS := fun h => by cases h
theorem snd1_ne_bar : (SemLoc.dma snd1 : SemLoc sig) ≠ .reg barS := fun h => by cases h
theorem rcv0_ne_bar : (SemLoc.dma rcv0 : SemLoc sig) ≠ .reg barS := fun h => by cases h
theorem rcv1_ne_bar : (SemLoc.dma rcv1 : SemLoc sig) ≠ .reg barS := fun h => by cases h
theorem rcv1_ne_rcv0 : (SemLoc.dma rcv1 : SemLoc sig) ≠ .dma rcv0 := by decide
theorem snd0_ne_rcv0 : (SemLoc.dma snd0 : SemLoc sig) ≠ .dma rcv0 := by decide
theorem snd0_ne_rcv1 : (SemLoc.dma snd0 : SemLoc sig) ≠ .dma rcv1 := by decide
theorem snd1_ne_rcv0 : (SemLoc.dma snd1 : SemLoc sig) ≠ .dma rcv0 := by decide
theorem snd1_ne_rcv1 : (SemLoc.dma snd1 : SemLoc sig) ≠ .dma rcv1 := by decide
theorem snd1_ne_snd0 : (SemLoc.dma snd1 : SemLoc sig) ≠ .dma snd0 := by decide

omit [FloatOps F] in
theorem duties_bar : (xrd (F := F) m ρ).duties (barCell c) 0 = {()} := by dsimp only [xrd]; exact if_pos ⟨rfl, .inl ⟨rfl, rfl⟩⟩
omit [FloatOps F] in
theorem duties_snd0 : (xrd (F := F) m ρ).duties (sndCell0 c) 0 = {()} := by dsimp only [xrd]; exact if_pos ⟨rfl, .inr ⟨rfl, .inl rfl⟩⟩
omit [FloatOps F] in
theorem duties_snd1 : (xrd (F := F) m ρ).duties (sndCell1 c) 0 = {()} := by dsimp only [xrd]; exact if_pos ⟨rfl, .inr ⟨rfl, .inr (.inl rfl)⟩⟩
omit [FloatOps F] in
theorem duties_rcv0 : (xrd (F := F) m ρ).duties (rcvCell0 c) 0 = {()} := by dsimp only [xrd]; exact if_pos ⟨rfl, .inr ⟨rfl, .inr (.inr (.inl rfl))⟩⟩
omit [FloatOps F] in
theorem duties_rcv1 : (xrd (F := F) m ρ).duties (rcvCell1 c) 0 = {()} := by dsimp only [xrd]; exact if_pos ⟨rfl, .inr ⟨rfl, .inr (.inr (.inr rfl))⟩⟩
omit [FloatOps F] in
theorem duties_later (g : GSem nD τ sig) : ∀ r, 1 ≤ r → (xrd (F := F) m ρ).duties g r = ∅ :=
  fun r hr => by dsimp only [xrd]; rw [if_neg fun h => by omega]

omit [FloatOps F] in
theorem amount_bar (d : Unit) : (xrd (F := F) m ρ).amount (barCell c) 0 d = 1 := by dsimp only [xrd]; exact if_pos rfl
omit [FloatOps F] in
theorem amount_snd0 (d : Unit) : (xrd (F := F) m ρ).amount (sndCell0 c) 0 d = N := by dsimp only [xrd]; exact if_neg snd0_ne_bar
omit [FloatOps F] in
theorem amount_snd1 (d : Unit) : (xrd (F := F) m ρ).amount (sndCell1 c) 0 d = N := by dsimp only [xrd]; exact if_neg snd1_ne_bar
omit [FloatOps F] in
theorem amount_rcv0 (d : Unit) : (xrd (F := F) m ρ).amount (rcvCell0 c) 0 d = N := by dsimp only [xrd]; exact if_neg rcv0_ne_bar
omit [FloatOps F] in
theorem amount_rcv1 (d : Unit) : (xrd (F := F) m ρ).amount (rcvCell1 c) 0 d = N := by dsimp only [xrd]; exact if_neg rcv1_ne_bar

omit [FloatOps F] in
theorem expect_bar : (xrd (F := F) m ρ).expect (barCell c) 0 = 1 := by
  unfold Schedule.expect Schedule.amountOf; rw [duties_bar, Finset.sum_singleton, amount_bar]
omit [FloatOps F] in
theorem expect_snd0 : (xrd (F := F) m ρ).expect (sndCell0 c) 0 = N := by
  unfold Schedule.expect Schedule.amountOf; rw [duties_snd0, Finset.sum_singleton, amount_snd0]
omit [FloatOps F] in
theorem expect_snd1 : (xrd (F := F) m ρ).expect (sndCell1 c) 0 = N := by
  unfold Schedule.expect Schedule.amountOf; rw [duties_snd1, Finset.sum_singleton, amount_snd1]
omit [FloatOps F] in
theorem expect_rcv0 : (xrd (F := F) m ρ).expect (rcvCell0 c) 0 = N := by
  unfold Schedule.expect Schedule.amountOf; rw [duties_rcv0, Finset.sum_singleton, amount_rcv0]
omit [FloatOps F] in
theorem expect_rcv1 : (xrd (F := F) m ρ).expect (rcvCell1 c) 0 = N := by
  unfold Schedule.expect Schedule.amountOf; rw [duties_rcv1, Finset.sum_singleton, amount_rcv1]

omit [FloatOps F] in
theorem payload_bar (d : Unit) : (xrd (F := F) m ρ).payload (barCell c) 0 d = barPay c := by dsimp only [xrd]; rw [if_pos rfl]
omit [FloatOps F] in
theorem payload_rcv0 (d : Unit) : (xrd (F := F) m ρ).payload (rcvCell0 c) 0 d
    = ((rS0 : Memref sig .tc .vmem S128x256 .f32).view.loc (c : Thread nD τ) ↦[(rS0 : Memref sig .tc .vmem S128x256 .f32).view.set]{fullShare} landed m ρ c) := by
  dsimp only [xrd]; rw [if_neg rcv0_ne_bar, if_pos rfl]
omit [FloatOps F] in
theorem payload_rcv1 (d : Unit) : (xrd (F := F) m ρ).payload (rcvCell1 c) 0 d
    = ((rS1 : Memref sig .tc .vmem S128x256 .f32).view.loc (c : Thread nD τ) ↦[(rS1 : Memref sig .tc .vmem S128x256 .f32).view.set]{fullShare} landed m ρ c) := by
  dsimp only [xrd]; rw [if_neg rcv1_ne_bar, if_neg rcv1_ne_rcv0, if_pos rfl]
omit [FloatOps F] in
theorem payload_snd0 (d : Unit) : (xrd (F := F) m ρ).payload (sndCell0 c) 0 d
    = ((xS0 : Memref sig .tc .vmem S128x256 .f32).view.loc (c : Thread nD τ) ↦[(xS0 : Memref sig .tc .vmem S128x256 .f32).view.set]{fullShare.right} xstg m ρ c) := by
  dsimp only [xrd]; rw [if_neg snd0_ne_bar, if_neg snd0_ne_rcv0, if_neg snd0_ne_rcv1, if_pos rfl]
omit [FloatOps F] in
theorem payload_snd1 (d : Unit) : (xrd (F := F) m ρ).payload (sndCell1 c) 0 d
    = ((xS1 : Memref sig .tc .vmem S128x256 .f32).view.loc (c : Thread nD τ) ↦[(xS1 : Memref sig .tc .vmem S128x256 .f32).view.set]{fullShare.right} xstg m ρ c) := by
  dsimp only [xrd]; rw [if_neg snd1_ne_bar, if_neg snd1_ne_rcv0, if_neg snd1_ne_rcv1, if_neg snd1_ne_snd0, if_pos rfl]

omit [FloatOps F] in
/-- The rest of a cell's round, no duty taken, is its one duty's payload. -/
theorem rest_bar : bigSep ((xrd (F := F) m ρ).duties (barCell c) 0 \ ∅) (fun d => (xrd (F := F) m ρ).payload (barCell c) 0 d) = barPay c := by
  rw [Finset.sdiff_empty, duties_bar, bigSep_singleton, payload_bar]
omit [FloatOps F] in
theorem rest_rcv0 : bigSep ((xrd (F := F) m ρ).duties (rcvCell0 c) 0 \ ∅) (fun d => (xrd (F := F) m ρ).payload (rcvCell0 c) 0 d)
    = ((rS0 : Memref sig .tc .vmem S128x256 .f32).view.loc (c : Thread nD τ) ↦[(rS0 : Memref sig .tc .vmem S128x256 .f32).view.set]{fullShare} landed m ρ c) := by
  rw [Finset.sdiff_empty, duties_rcv0, bigSep_singleton, payload_rcv0]
omit [FloatOps F] in
theorem rest_rcv1 : bigSep ((xrd (F := F) m ρ).duties (rcvCell1 c) 0 \ ∅) (fun d => (xrd (F := F) m ρ).payload (rcvCell1 c) 0 d)
    = ((rS1 : Memref sig .tc .vmem S128x256 .f32).view.loc (c : Thread nD τ) ↦[(rS1 : Memref sig .tc .vmem S128x256 .f32).view.set]{fullShare} landed m ρ c) := by
  rw [Finset.sdiff_empty, duties_rcv1, bigSep_singleton, payload_rcv1]
omit [FloatOps F] in
theorem rest_snd0 : bigSep ((xrd (F := F) m ρ).duties (sndCell0 c) 0 \ ∅) (fun d => (xrd (F := F) m ρ).payload (sndCell0 c) 0 d)
    = ((xS0 : Memref sig .tc .vmem S128x256 .f32).view.loc (c : Thread nD τ) ↦[(xS0 : Memref sig .tc .vmem S128x256 .f32).view.set]{fullShare.right} xstg m ρ c) := by
  rw [Finset.sdiff_empty, duties_snd0, bigSep_singleton, payload_snd0]
omit [FloatOps F] in
theorem rest_snd1 : bigSep ((xrd (F := F) m ρ).duties (sndCell1 c) 0 \ ∅) (fun d => (xrd (F := F) m ρ).payload (sndCell1 c) 0 d)
    = ((xS1 : Memref sig .tc .vmem S128x256 .f32).view.loc (c : Thread nD τ) ↦[(xS1 : Memref sig .tc .vmem S128x256 .f32).view.set]{fullShare.right} xstg m ρ c) := by
  rw [Finset.sdiff_empty, duties_snd1, bigSep_singleton, payload_snd1]

end Sched

/-! ## What each core owes at launch; the levels -/

/-- Device c owes its partner's two receive cells a half's credit each and its partner's barrier cell one unit —
    summed so that the signal peels the last summand, the first copy the middle one. -/
def O₁ (c : Dev nD) : CellTallies nD τ sig Unit := tallyAt (rcvCell1 (peer c)) () N + tallyAt (rcvCell0 (peer c)) () N
def O₀ (c : Dev nD) : CellTallies nD τ sig Unit := O₁ c + tallyAt (barCell (peer c)) () 1

def L (g : GSem nD τ sig) : Finset Unit := if g.1.2 = .tc then {()} else ∅
/-- barrier cells at 1, receive cells at 2, everything else (staging, send) at 0. -/
def lv (g : GSem nD τ sig) (_ : Unit) : ℕ :=
  if g.2 = .reg barS then 1 else if g.2 = .dma rcv0 ∨ g.2 = .dma rcv1 then 2 else 0

theorem L_of_ne (g : GSem nD τ sig) (h : g.1.2 ≠ .tc) : L g = ∅ := if_neg h
theorem L_tc (c : Dev nD) (sm : SemLoc sig) : L ((c : Thread nD τ), sm) = {()} := if_pos rfl

theorem O₁_pos {c : Dev nD} {g : GSem nD τ sig} {u : Unit} (h : 0 < O₁ c g u) :
    g = rcvCell1 (peer c) ∨ g = rcvCell0 (peer c) := by
  unfold O₁ at h
  rw [Pi.add_apply, Finsupp.add_apply, tallyAt_apply, tallyAt_apply] at h
  by_contra hn
  rw [not_or] at hn
  rw [if_neg (fun h' => hn.1 h'.1), if_neg (fun h' => hn.2 h'.1)] at h
  exact Nat.lt_irrefl 0 h

theorem O₀_pos {c : Dev nD} {g : GSem nD τ sig} {u : Unit} (h : 0 < O₀ c g u) :
    g = rcvCell1 (peer c) ∨ g = rcvCell0 (peer c) ∨ g = barCell (peer c) := by
  unfold O₀ O₁ at h
  rw [Pi.add_apply, Finsupp.add_apply, Pi.add_apply, Finsupp.add_apply, tallyAt_apply, tallyAt_apply, tallyAt_apply] at h
  by_contra hn
  rw [not_or, not_or] at hn
  rw [if_neg (fun h' => hn.1 h'.1), if_neg (fun h' => hn.2.1 h'.1), if_neg (fun h' => hn.2.2 h'.1)] at h
  exact Nat.lt_irrefl 0 h

theorem lv_rcv0 (c : Dev nD) : lv (rcvCell0 c) () = 2 := by
  dsimp only [lv]; rw [if_neg rcv0_ne_bar, if_pos (.inl rfl)]
theorem lv_rcv1 (c : Dev nD) : lv (rcvCell1 c) () = 2 := by
  dsimp only [lv]; rw [if_neg rcv1_ne_bar, if_pos (.inr rfl)]
theorem lv_bar (c : Dev nD) : lv (barCell c) () = 1 := by
  dsimp only [lv]; rw [if_pos rfl]

omit [FloatOps F] in
/-- A wait on a cell that is neither a barrier nor a receive cell (a staging cell, a send cell) is below all a device can owe. -/
theorem mayWait_low (c : Dev nD) (q : DmaSem sig) (hq0 : SemLoc.dma q ≠ .dma rcv0) (hq1 : SemLoc.dma q ≠ .dma rcv1)
    (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl | rfl <;> exact Finset.mem_singleton_self _)
      (fun p hp => by
        rw [Finset.mem_singleton.mp hp]; dsimp only [lv]
        rw [if_neg (fun h => by cases h), if_neg (fun h => h.elim hq0 hq1)])
      (fun g u hg => by
        rcases O₀_pos hg with rfl | rfl | rfl
        · rw [lv_rcv1]; decide
        · rw [lv_rcv0]; decide
        · rw [lv_bar]; decide)
  · rw [MayWait_zero]; iintro -; iempintro

omit [FloatOps F] in
/-- At its barrier wait a device owes its partner's two receive credits only: receive cells, above its barrier cell. -/
theorem mayWait_bar (c : Dev nD) :
    (levAts L lv : sProp 𝕄) ⊢ MayWait (c : Thread nD τ) (.reg barS) () (O₁ c) :=
  MayOwe.of_cut (L := L) (lev := lv) 1 (fun p hp => by rw [Finset.mem_singleton.mp hp, L_tc]; exact Finset.mem_singleton_self _)
    (fun g u hg => by rcases O₁_pos hg with rfl | rfl <;> exact Finset.mem_singleton_self _)
    (fun p hp => by rw [Finset.mem_singleton.mp hp]; exact (lv_bar c).le)
    (fun g u hg => by
      rcases O₁_pos hg with rfl | rfl
      · rw [lv_rcv1]; decide
      · rw [lv_rcv0]; decide)

end Cert.KernelRun

end
-- ==== Proof.KernelData.lean ====
/-
The proof data of the kernel's one pipeline point on each device: the ghost state of the exchange a device
starts from, what it holds before and after the body (the landing buffer at some contents; then the landing
buffer holding the partner's block and the four transfer semaphores back at zero), and the contents of the two
staged windows — the device's input block, and the sum of the two blocks in the result.
-/
import proofs.«900503_g7700000000000504_dist_ar_v7x_xyz2x2x2_y_m256_n256_f32_1_alg».proof.Proof.KernelSched

noncomputable section

namespace Cert.KernelRun

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The kernel's result on device c: its block plus its partner's, entry by entry. -/
def outAt (c : Dev nD) : (cc0_stg1_0 : Ref sig .tc).ty.Contents (Elt F) := addf (xstg m ρ c) (xstg m ρ (peer c))

/-- The cells' invariants device c's body opens, under the names the launch allocated them at: its own five,
    its partner's barrier cell (its signal) and its partner's two receive cells (its copies). -/
def invs (K : Dev nD × Fin 5 → ℕ) (c : Dev nD) : sProp 𝕄 :=
  iprop(cellInv ER (xrd m ρ) (K (c, 0)) (barCell c) ∗ cellInv ER (xrd m ρ) (K (c, 1)) (sndCell0 c) ∗ cellInv ER (xrd m ρ) (K (c, 2)) (sndCell1 c)
    ∗ cellInv ER (xrd m ρ) (K (c, 3)) (rcvCell0 c) ∗ cellInv ER (xrd m ρ) (K (c, 4)) (rcvCell1 c)
    ∗ cellInv ER (xrd m ρ) (K (peer c, 0)) (barCell (peer c))
    ∗ cellInv ER (xrd m ρ) (K (peer c, 3)) (rcvCell0 (peer c)) ∗ cellInv ER (xrd m ρ) (K (peer c, 4)) (rcvCell1 (peer c)))

instance invs_persistent (K : Dev nD × Fin 5 → ℕ) (c : Dev nD) : BI.Persistent (invs m ρ K c) := by unfold invs; infer_instance

/-- The exchange's ghost state device c starts from: the invariants; its positions at round 0 of its five cells; that
    round 0 is reached of the cells it pays; the five duty tokens it pays with. -/
def ghost (K : Dev nD × Fin 5 → ℕ) (c : Dev nD) : sProp 𝕄 :=
  iprop(invs m ρ K c
    ∗ atPos ER (barCell c) 0 ∅ 0 ∗ atPos ER (sndCell0 c) 0 ∅ 0 ∗ atPos ER (sndCell1 c) 0 ∅ 0 ∗ atPos ER (rcvCell0 c) 0 ∅ 0 ∗ atPos ER (rcvCell1 c) 0 ∅ 0
    ∗ reached ER (barCell (peer c)) 0 ∗ reached ER (rcvCell0 (peer c)) 0 ∗ reached ER (rcvCell1 (peer c)) 0 ∗ reached ER (sndCell0 c) 0 ∗ reached ER (sndCell1 c) 0
    ∗ dutyTok ER (barCell (peer c)) 0 () ∗ dutyTok ER (rcvCell0 (peer c)) 0 () ∗ dutyTok ER (rcvCell1 (peer c)) 0 ()
    ∗ dutyTok ER (sndCell0 c) 0 () ∗ dutyTok ER (sndCell1 c) 0 ())

/-- What device c's body starts from: that at some names, the credit of what is owed its barrier cell and its two
    receive cells, and the level facts. -/
def start (c : Dev nD) : sProp 𝕄 :=
  iprop((∃ K, ghost m ρ K c) ∗ cred (tallyAt (barCell c) () 1) ∗ cred (tallyAt (rcvCell0 c) () N) ∗ cred (tallyAt (rcvCell1 c) () N) ∗ levAts L lv)

def Φ₀ (c : Dev nD) : sProp 𝕄 := iprop(start m ρ c ∗ ∃ f, (((c : Thread nD τ).loc cc0_scratch0) ↦{fullShare} f))
/-- After the point: the landing buffer holding the partner's block, the four own cells at zero, closed (the barrier
    cell is the runtime's: nothing to hand back). -/
def Φ₁ (c : Dev nD) : sProp 𝕄 :=
  iprop((((c : Thread nD τ).loc cc0_scratch0) ↦{fullShare} landed m ρ c)
    ∗ semVal (sndCell0 c) 0 ∗ semVal (sndCell1 c) 0 ∗ semVal (rcvCell0 c) 0 ∗ semVal (rcvCell1 c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

abbrev 𝒱₀ : Variants := Variants.none

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

end Cert.KernelRun

end
-- ==== Proof.KernelGeo.lean ====
/-
The geometry of the two halves of a 256x256 buffer: rows 0..127 and rows 128..255 partition the buffer's
elements; a half written from the matching half of another buffer carries that buffer's values there; a
load of a half reads inside that half; and the two half-stores of the sums of the halves make the whole
pointwise sum.
-/
import proofs.«900503_g7700000000000504_dist_ar_v7x_xyz2x2x2_y_m256_n256_f32_1_alg».proof.Proof.KernelBase
import Idealize.ShloMosaic.Lib.Pipeline.Value
import Idealize.ShloMosaic.Lib.Exec.Geometry

noncomputable section

namespace Cert.KernelRun

open Cert.Kernel Cert.Kernel.Gen Idealize.ShloMosaic

variable {F : FTy → Type} [FloatOps F]

/-! ## The halves as sets of elements

A half of a whole buffer holds exactly the elements of its row rectangle, and an element lies in the
first rectangle when its row is below 128, in the second when its row is 128 or more: so each half is
the complement of the other. -/

theorem rS0_set : (rS0).view.set = rc0.set := View.set_slice_whole cc0_scratch0 rc0
theorem rS1_set' : (rS1).view.set = rc1.set := View.set_slice_whole cc0_scratch0 rc1
theorem xS0_set : (xS0).view.set = rc0.set := View.set_slice_whole cc0_stg0_0 rc0
theorem xS1_set' : (xS1).view.set = rc1.set := View.set_slice_whole cc0_stg0_0 rc1

/-- Rows 0..127: the row coordinate is below 128 (the column coordinate is any of the 256). -/
theorem mem_rc0 {i : S256x256.Idx} : i ∈ rc0.set ↔ (i 0 : Nat) < 128 := by
  rw [Rect.mem_set_unit, Fin.forall_fin_two]
  have h1 : (i 1 : Nat) < 256 := (i 1).isLt
  simp only [Matrix.cons_val_zero, Matrix.cons_val_one]
  omega

/-- Rows 128..255: the row coordinate is at least 128 (it is below 256 in any case). -/
theorem mem_rc1 {i : S256x256.Idx} : i ∈ rc1.set ↔ 128 ≤ (i 0 : Nat) := by
  rw [Rect.mem_set_unit, Fin.forall_fin_two]
  have h0 : (i 0 : Nat) < 256 := (i 0).isLt
  have h1 : (i 1 : Nat) < 256 := (i 1).isLt
  simp only [Matrix.cons_val_zero, Matrix.cons_val_one]
  omega

/-- The second row rectangle is the complement of the first: a row is 128 or more exactly when it is
    not below 128. -/
theorem rc1_set : rc1.set = Finset.univ \ rc0.set := by
  ext i
  rw [Finset.mem_sdiff, mem_rc1, mem_rc0]
  simp only [Finset.mem_univ, true_and, Nat.not_lt]

theorem rS1_set : (rS1).view.set = Finset.univ \ (rS0).view.set := by
  rw [rS1_set', rS0_set]; exact rc1_set

theorem xS1_set : (xS1).view.set = Finset.univ \ (xS0).view.set := by
  rw [xS1_set', xS0_set]; exact rc1_set

/-! ## Writing a whole vector through a rectangle of a whole buffer

At the element under the rectangle's index `x` the buffer takes the vector's value at `x`; an element
outside the rectangle keeps what it held. -/

theorem write_access_emb (b : Ref sig .tc) (r : Rect b.ty.shape) (f : b.ty.Contents (Elt F))
    (w : r.shape.Idx → Elt F b.ty.elt) (x : r.shape.Idx) :
    ((Memref.whole b).access r : View sig .tc _ _ _).write (Elt F) f w Finset.univ (r.emb x) = w x :=
  View.write_emb_of_mem (v := ((Memref.whole b).access r : View sig .tc _ _ _)) (Val := Elt F) f w
    (M := Finset.univ) (x := x) (Finset.mem_univ _)

theorem write_access_of_not_mem (b : Ref sig .tc) (r : Rect b.ty.shape) (f : b.ty.Contents (Elt F))
    (w : r.shape.Idx → Elt F b.ty.elt) {i : b.ty.shape.Idx} (hi : i ∉ r.set) :
    ((Memref.whole b).access r : View sig .tc _ _ _).write (Elt F) f w Finset.univ i = f i := by
  refine View.write_of_not_mem (v := ((Memref.whole b).access r : View sig .tc _ _ _)) f w Finset.univ ?_
  rw [View.setOn_univ, View.set_slice_whole]; exact hi

/-! ## A landed half carries the source's values

The half of the landing buffer and the half of the input block sit at the same rows of buffers of one
shape, so the element under an index of the one half is the element under the same index of the other:
what is read off the source there is what is written into the landing buffer there. -/

theorem land0 (fd fs : S256x256.Idx → Elt F .f32) :
    ∀ i ∈ (rS0).view.set, (rS0).view.write (Elt F) fd ((xS0).view.read (Elt F) fs) Finset.univ i = fs i := by
  intro i hi
  obtain ⟨x, -, rfl⟩ := Finset.mem_map.mp hi
  exact View.write_emb_of_mem (v := (rS0).view) (Val := Elt F) fd _ (Finset.mem_univ x)

theorem land1 (fd fs : S256x256.Idx → Elt F .f32) :
    ∀ i ∈ (rS1).view.set, (rS1).view.write (Elt F) fd ((xS1).view.read (Elt F) fs) Finset.univ i = fs i := by
  intro i hi
  obtain ⟨x, -, rfl⟩ := Finset.mem_map.mp hi
  exact View.write_emb_of_mem (v := (rS1).view) (Val := Elt F) fd _ (Finset.mem_univ x)

/-! ## A load of a half reads inside that half

The coordinates a load of rows 0..127 (128..255) of the landing buffer reads are those of the row
rectangle itself, which on each of the two axes lies within its own span. -/

theorem load_sub0 : (rM).view.setOn rc0.toLoadRect.set ⊆ (rS0).view.set :=
  Memref.setOn_subset_slice_of_within rM rc0 (fun _ => rfl) rc0.toLoadRect (by decide)

theorem load_sub1 : (rM).view.setOn rc1.toLoadRect.set ⊆ (rS1).view.set :=
  Memref.setOn_subset_slice_of_within rM rc1 (fun _ => rfl) rc1.toLoadRect (by decide)

/-! ## The two stores make the sum

Each store writes, on its half of the result block, the sum of the same half of the two operands (the
shape cast between equal shapes is the identity). An element of the result whose row is 128 or more was
written by the second store, with the sum at its own place; one whose row is below 128 was left alone by
the second store and written by the first, again with the sum at its own place. -/

theorem out_eq (g X Y : S256x256.Idx → Elt F .f32) :
    ((oM.access rc1 : View sig .tc _ _ _).write (Elt F)
      ((oM.access rc0 : View sig .tc _ _ _).write (Elt F) g
        (k0_pay2 ((xM).view.readAt (Elt F) rc0.toLoadRect X) ((rM).view.readAt (Elt F) rc0.toLoadRect Y)) Finset.univ)
      (k0_pay1 ((xM).view.readAt (Elt F) rc1.toLoadRect X) ((rM).view.readAt (Elt F) rc1.toLoadRect Y)) Finset.univ)
    = addf X Y := by
  funext i
  by_cases hi : i ∈ rc1.set
  · -- row 128 or more: the second store's element
    obtain ⟨x, rfl⟩ := rc1.exists_idx_of_mem hi
    refine (write_access_emb cc0_stg1_0 rc1 _ _ x).trans ?_
    unfold k0_pay1
    rw [shapeCast_self]
    rfl
  · -- row below 128: untouched by the second store, the first store's element
    have hi0 : i ∈ rc0.set := by
      rw [rc1_set, Finset.mem_sdiff] at hi
      by_contra h0; exact hi ⟨Finset.mem_univ _, h0⟩
    refine (write_access_of_not_mem cc0_stg1_0 rc1 _ _ hi).trans ?_
    obtain ⟨x, rfl⟩ := rc0.exists_idx_of_mem hi0
    refine (write_access_emb cc0_stg1_0 rc0 _ _ x).trans ?_
    unfold k0_pay2
    rw [shapeCast_self]
    rfl

end Cert.KernelRun

end
-- ==== Proof.KernelBody.lean ====
/-
One device's run of the kernel body, from the exchange's ghost state to the block sum in the result buffer.

The device signals its partner's barrier cell — handing over both halves of its own landing buffer —,
waits on its own barrier cell and so receives the partner's landing buffer, starts the two copies of
the halves of its input block into it (lending each copy a share of that half of the block and keeping
the other share of the whole block to read from), and then, half by half, waits for the partner's copy
to land, adds what landed to its own half and stores the sum. Last it waits for its own two copies to
have been read out, which returns the lent shares; the four transfer cells are then closed.
-/
import proofs.«900503_g7700000000000504_dist_ar_v7x_xyz2x2x2_y_m256_n256_f32_1_alg».proof.Proof.KernelData
import proofs.«900503_g7700000000000504_dist_ar_v7x_xyz2x2x2_y_m256_n256_f32_1_alg».proof.Proof.KernelGeo

noncomputable section

namespace Cert.KernelRun

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body -/

section Body

variable (K : Dev nD × Fin 5 → ℕ)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m ρ K c ∗ cred (tallyAt (barCell c) () 1) ∗ cred (tallyAt (rcvCell0 c) () N) ∗ cred (tallyAt (rcvCell1 c) () N) ∗ levAts L lv
      ∗ ∃ f, (((c : Thread nD τ).loc cc0_scratch0) ↦{fullShare} f))
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ m ρ c ∗ (dats m ρ 0 c).owesAt () t₀.succ ∗ stg c cc0_stg0_0 (xstg m ρ c) ∗ stg c cc0_stg1_0 (outAt m ρ c))

omit [FloatOps F] in
/-- A whole buffer of the landing buffer's shape is its two halves. -/
theorem scr_split (c : Dev nD) (f : Buf (Elt F) ((c : Thread nD τ).loc cc0_scratch0)) :
    (((c : Thread nD τ).loc cc0_scratch0) ↦{fullShare} f : sProp 𝕄)
      ⊣⊢ iprop(((rS0 : Memref sig .tc .vmem S128x256 .f32).view.loc (c : Thread nD τ) ↦[(rS0 : Memref sig .tc .vmem S128x256 .f32).view.set]{fullShare} f)
          ∗ ((rS1 : Memref sig .tc .vmem S128x256 .f32).view.loc (c : Thread nD τ) ↦[(rS1 : Memref sig .tc .vmem S128x256 .f32).view.set]{fullShare} f)) := by
  rw [rS1_set]
  exact pointsTo_split_subset (Finset.subset_univ _)

omit [FloatOps F] in
/-- The input block: one share of the whole kept to read from, the other share cut into the two halves the copies borrow. -/
theorem x_split (c : Dev nD) (f : Buf (Elt F) ((c : Thread nD τ).loc cc0_stg0_0)) :
    (((c : Thread nD τ).loc cc0_stg0_0) ↦{fullShare} f : sProp 𝕄)
      ⊣⊢ iprop(((xM : Memref sig .tc .vmem S256x256 .f32).view.loc (c : Thread nD τ) ↦[(xM : Memref sig .tc .vmem S256x256 .f32).view.set]{fullShare.left} f)
          ∗ ((xS0 : Memref sig .tc .vmem S128x256 .f32).view.loc (c : Thread nD τ) ↦[(xS0 : Memref sig .tc .vmem S128x256 .f32).view.set]{fullShare.right} f)
          ∗ ((xS1 : Memref sig .tc .vmem S128x256 .f32).view.loc (c : Thread nD τ) ↦[(xS1 : Memref sig .tc .vmem S128x256 .f32).view.set]{fullShare.right} f)) := by
  rw [xS1_set, show (xM : Memref sig .tc .vmem S256x256 .f32).view.set = Finset.univ from View.set_whole _]
  have h1 := pointsTo_share (ℓ := (c : Thread nD τ).loc cc0_stg0_0) (I := Finset.univ) (f := f) (Ix := Unit) (Val := Elt F) (Name := ℕ) (U := UU) (Lvl := ℕ)
    (PosShare.mem_left_op_right fullShare)
  have h2 := pointsTo_split_subset (ℓ := (c : Thread nD τ).loc cc0_stg0_0) (q := fullShare.right) (f := f) (Ix := Unit) (Val := Elt F) (Name := ℕ) (U := UU) (Lvl := ℕ)
    (Finset.subset_univ (xS0 : Memref sig .tc .vmem S128x256 .f32).view.set)
  exact ⟨h1.1.trans (sep_mono_right h2.1), (sep_mono_right h2.2).trans h1.2⟩

/-- The copy of half 0, addressed to the partner `n = peer c`: it borrows the lent share of that half of the input block and
    the partner's half of the landing buffer, pays the device's send cell and the partner's receive cell, and takes the
    half's credit off what the device owes. -/
theorem wp_send_half0 (c n : Dev nD) (hn : n = peer c)
    {hsc : (rS0 : Memref sig (Dev.tc n : Thread nD τ).2.kind .vmem S128x256 .f32).view.ref.isScScratch = false}
    {hsrc : (xS0 : Memref sig .tc .vmem S128x256 .f32).view.WordExact} {hdst : (rS0 : Memref sig .tc .vmem S128x256 .f32).view.WordExact}
    {hsem : DmaTarget.Typed .vmem (.dma rcv0) (.remote (Dev.tc n : Thread nD τ) (rS0 : Memref sig .tc .vmem S128x256 .f32) (.dma snd0) hsc)}
    {α : Type} {Q : α → sProp 𝕄} {k : PUnit → Prog (TpuEff nD τ sig (Elt F) Λ₀ .tc) α}
    (fn : Buf (Elt F) ((rS0 : Memref sig .tc .vmem S128x256 .f32).view.loc (peer c : Thread nD τ))) (O : CellTallies nD τ sig Unit) (W : Waits sig Unit) :
    iprop(cellInv ER (xrd m ρ) (K (c, 1)) (sndCell0 c) ∗ cellInv ER (xrd m ρ) (K (peer c, 3)) (rcvCell0 (peer c))
        ∗ ((xS0 : Memref sig .tc .vmem S128x256 .f32).view.loc (c : Thread nD τ) ↦[(xS0 : Memref sig .tc .vmem S128x256 .f32).view.set]{fullShare.right} xstg m ρ c)
        ∗ ((rS0 : Memref sig .tc .vmem S128x256 .f32).view.loc (peer c : Thread nD τ) ↦[(rS0 : Memref sig .tc .vmem S128x256 .f32).view.set]{fullShare} fn)
        ∗ owes (c : Thread nD τ) (O + tallyAt (rcvCell0 (peer c)) () N) W
        ∗ dutyTok ER (sndCell0 c) 0 () ∗ reached ER (sndCell0 c) 0
        ∗ dutyTok ER (rcvCell0 (peer c)) 0 () ∗ reached ER (rcvCell0 (peer c)) 0)
      ⊢ iprop(((cred (tallyAt (sndCell0 c) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma xS0 (.remote (Dev.tc n : Thread nD τ) rS0 (.dma snd0) hsc) (.dma rcv0) hsrc hdst hsem) k) Q) := by
  subst hn
  exact Rounds.wp_send_pointsTo 𝒱₀ ER (xrd m ρ) (c : Thread nD τ) none (κ₁ := K (c, 1)) (κ₂ := K (peer c, 3))
    (r₁ := 0) (r₂ := 0) (d₁ := ()) (d₂ := ()) (fd := fn)
    (by rw [duties_snd0]; exact Finset.mem_singleton_self _) (by rw [duties_rcv0]; exact Finset.mem_singleton_self _)
    () () N rfl (amount_snd0 m ρ c ()) (amount_rcv0 m ρ (peer c) ()) O rfl (W := W)
    (by rw [payload_snd0])
    (by
      rw [payload_rcv0]
      refine Entails.of_eq (pointsTo_congr fun i hi => ?_)
      unfold landed; rw [peer_peer]
      exact land0 _ _ i hi)

/-- The copy of half 1, addressed to the partner `n = peer c`: it borrows the lent share of that half of the input block and
    the partner's half of the landing buffer, pays the device's send cell and the partner's receive cell, and takes the
    half's credit off what the device owes. -/
theorem wp_send_half1 (c n : Dev nD) (hn : n = peer c)
    {hsc : (rS1 : Memref sig (Dev.tc n : Thread nD τ).2.kind .vmem S128x256 .f32).view.ref.isScScratch = false}
    {hsrc : (xS1 : Memref sig .tc .vmem S128x256 .f32).view.WordExact} {hdst : (rS1 : Memref sig .tc .vmem S128x256 .f32).view.WordExact}
    {hsem : DmaTarget.Typed .vmem (.dma rcv1) (.remote (Dev.tc n : Thread nD τ) (rS1 : Memref sig .tc .vmem S128x256 .f32) (.dma snd1) hsc)}
    {α : Type} {Q : α → sProp 𝕄} {k : PUnit → Prog (TpuEff nD τ sig (Elt F) Λ₀ .tc) α}
    (fn : Buf (Elt F) ((rS1 : Memref sig .tc .vmem S128x256 .f32).view.loc (peer c : Thread nD τ))) (O : CellTallies nD τ sig Unit) (W : Waits sig Unit) :
    iprop(cellInv ER (xrd m ρ) (K (c, 2)) (sndCell1 c) ∗ cellInv ER (xrd m ρ) (K (peer c, 4)) (rcvCell1 (peer c))
        ∗ ((xS1 : Memref sig .tc .vmem S128x256 .f32).view.loc (c : Thread nD τ) ↦[(xS1 : Memref sig .tc .vmem S128x256 .f32).view.set]{fullShare.right} xstg m ρ c)
        ∗ ((rS1 : Memref sig .tc .vmem S128x256 .f32).view.loc (peer c : Thread nD τ) ↦[(rS1 : Memref sig .tc .vmem S128x256 .f32).view.set]{fullShare} fn)
        ∗ owes (c : Thread nD τ) (O + tallyAt (rcvCell1 (peer c)) () N) W
        ∗ dutyTok ER (sndCell1 c) 0 () ∗ reached ER (sndCell1 c) 0
        ∗ dutyTok ER (rcvCell1 (peer c)) 0 () ∗ reached ER (rcvCell1 (peer c)) 0)
      ⊢ iprop(((cred (tallyAt (sndCell1 c) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma xS1 (.remote (Dev.tc n : Thread nD τ) rS1 (.dma snd1) hsc) (.dma rcv1) hsrc hdst hsem) k) Q) := by
  subst hn
  exact Rounds.wp_send_pointsTo 𝒱₀ ER (xrd m ρ) (c : Thread nD τ) none (κ₁ := K (c, 2)) (κ₂ := K (peer c, 4))
    (r₁ := 0) (r₂ := 0) (d₁ := ()) (d₂ := ()) (fd := fn)
    (by rw [duties_snd1]; exact Finset.mem_singleton_self _) (by rw [duties_rcv1]; exact Finset.mem_singleton_self _)
    () () N rfl (amount_snd1 m ρ c ()) (amount_rcv1 m ρ (peer c) ()) O rfl (W := W)
    (by rw [payload_snd1])
    (by
      rw [payload_rcv1]
      refine Entails.of_eq (pointsTo_congr fun i hi => ?_)
      unfold landed; rw [peer_peer]
      exact land1 _ _ i hi)

omit [FloatOps F] in
/-- The result block's staging buffer, spelt through its memref. -/
theorem out_view (c : Dev nD) (f : Buf (Elt F) ((c : Thread nD τ).loc cc0_stg1_0)) :
    (((c : Thread nD τ).loc cc0_stg1_0) ↦{fullShare} f : sProp 𝕄)
      = ((oM : Memref sig .tc .vmem S256x256 .f32).view.loc (c : Thread nD τ) ↦[(oM : Memref sig .tc .vmem S256x256 .f32).view.set]{fullShare} f) := by
  rw [show (oM : Memref sig .tc .vmem S256x256 .f32).view.set = Finset.univ from View.set_whole _]

attribute [local sl_rounds] duties_bar duties_snd0 duties_snd1 duties_rcv0 duties_rcv1 amount_bar amount_snd0 amount_snd1 amount_rcv0 amount_rcv1
  expect_bar expect_snd0 expect_snd1 expect_rcv0 expect_rcv1 payload_bar payload_snd0 payload_snd1 payload_rcv0 payload_rcv1
attribute [local sl_canon] dev1_eq dev2_eq dev3_eq

set_option maxHeartbeats 1600000 in
/-- The body, run from `bodyPre` to `bodyPost`. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  simp only [cc0_body_eq_skeleton]; unfold cc0_body_skel
  simp only [k0_part1_eq_skeleton, k0_part2_eq_skeleton]; unfold k0_part1_skel k0_part2_skel
  unfold bodyPre ghost invs
  iintro ⟨⟨⟨⟨⟨#HIbar, #HIs0, #HIs1, #HIr0, #HIr1, #HIbarP, #HIr0P, #HIr1P⟩, HatB, HatS0, HatS1, HatR0, HatR1, #HrBP, #HrR0P, #HrR1P, #HrS0, #HrS1,
      HtBP, HtR0P, HtR1P, HtS0, HtS1⟩, HcB, HcR0, HcR1, #Hlev, ⟨%f0, Hscr⟩⟩,
    Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  simp only [semSignalWord, semWaitWord, Prog.lift, Prog.bind_op, Prog.bind_ret, Prog.pure_eq_ret, wp_deviceId]
  simp only [dev1_eq c, dev2_eq c, dev3_eq c]
  -- the landing buffer, cut into its two halves
  ihave Hsp := (scr_split c f0).1 $$ Hscr
  icases Hsp with ⟨Hs0, Hs1⟩
  -- the signal to the partner's barrier cell, with both halves
  iapply (Rounds.wp_signal 𝒱₀ ER (xrd m ρ) (c : Thread nD τ) none (dst := (peer c : Thread nD τ)) (κ := K (peer c, 0))
      (d := ()) (by rw [duties_bar]; exact Finset.mem_singleton_self _) ((amount_bar m ρ (peer c) ()).trans (by decide)) () (O₁ c) rfl)
    $$ [HO HtBP Hs0 Hs1]
  · isplitr; · iexact HIbarP
    isplitl [HO]; · iexact HO
    isplitl [HtBP]; · iexact HtBP
    isplitl [Hs0 Hs1]
    · rw [payload_bar]; unfold barPay; rw [peer_peer]
      isplitl [Hs0]; · iexists f0; iexact Hs0
      iexists f0; iexact Hs1
    · iexact HrBP
  iintro HO
  have hmw := mayWait_bar (F := F) c
  sl_exec
  unfold barPay
  icases HatB_pay1 with ⟨⟨%fn0, HsP0⟩, ⟨%fn1, HsP1⟩⟩
  -- the input block: a share kept, the other cut into the halves the copies borrow
  ihave Hxs := (x_split c (xstg m ρ c)).1 $$ Hx
  icases Hxs with ⟨Hx, Hx0, Hx1⟩
  -- the copy of rows 0..127
  unfold O₁
  iapply (wp_send_half0 m ρ K c _ (dev2_eq c) fn0 (tallyAt (rcvCell1 (peer c)) () N) _) $$ [Hx0 HsP0 HO HtS0 HtR0P]
  · isplitr; · iexact HIs0
    isplitr; · iexact HIr0P
    isplitl [Hx0]; · iexact Hx0
    isplitl [HsP0]; · iexact HsP0
    isplitl [HO]; · iexact HO
    isplitl [HtS0]; · iexact HtS0
    isplitr; · iexact HrS0
    isplitl [HtR0P]; · iexact HtR0P
    iexact HrR0P
  iintro ⟨HcS0, HO⟩
  -- the copy of rows 128..255
  iapply (wp_send_half1 m ρ K c _ (dev3_eq c) fn1 0 _) $$ [Hx1 HsP1 HO HtS1 HtR1P]
  · isplitr; · iexact HIs1
    isplitr; · iexact HIr1P
    isplitl [Hx1]; · iexact Hx1
    isplitl [HsP1]; · iexact HsP1
    isplitl [HO]; · rw [zero_add]; iexact HO
    isplitl [HtS1]; · iexact HtS1
    isplitr; · iexact HrS1
    isplitl [HtR1P]; · iexact HtR1P
    iexact HrR1P
  iintro ⟨HcS1, HO⟩
  ihave Hout := (Entails.of_eq (out_view c g1)) $$ Hout
  -- the partner's halves land, each is added to the device's own half and stored; then the device's own copies are waited for
  sl_exec
  -- the four transfer cells close: their counters at zero are the core's again
  imod (Rounds.cell_close ER (xrd m ρ) (Set.mem_univ (K (c, 1))) (fun h => h) (R := 1) (duties_later m ρ (sndCell0 c))) $$ [HatS0] with HzS0
  · isplitr; · iexact HIs0
    iexact HatS0
  imod (Rounds.cell_close ER (xrd m ρ) (Set.mem_univ (K (c, 2))) (fun h => h) (R := 1) (duties_later m ρ (sndCell1 c))) $$ [HatS1] with HzS1
  · isplitr; · iexact HIs1
    iexact HatS1
  imod (Rounds.cell_close ER (xrd m ρ) (Set.mem_univ (K (c, 3))) (fun h => h) (R := 1) (duties_later m ρ (rcvCell0 c))) $$ [HatR0] with HzR0
  · isplitr; · iexact HIr0
    iexact HatR0
  imod (Rounds.cell_close ER (xrd m ρ) (Set.mem_univ (K (c, 4))) (fun h => h) (R := 1) (duties_later m ρ (rcvCell1 c))) $$ [HatR1] with HzR1
  · isplitr; · iexact HIr1
    iexact HatR1
  -- the halves rejoined: the landing buffer whole, the input block whole at the full share
  ihave Hscr := (scr_split c (landed m ρ c)).2 $$ [HatR0_pay1 HatR1_pay1]
  · isplitl [HatR0_pay1] <;> iassumption
  ihave Hx := (x_split c (xstg m ρ c)).2 $$ [Hx HatS0_pay1 HatS1_pay1]
  · isplitl [Hx]; · iexact Hx
    isplitl [HatS0_pay1] <;> iassumption
  -- the result block: the two stored halves are the sum
  have hout : ∀ g : Buf (Elt F) ((c : Thread nD τ).loc cc0_stg1_0),
      (oM : Memref sig .tc .vmem S256x256 .f32).view.writes (Elt F) g
        [⟨rc1, k0_pay1 ((xM : Memref sig .tc .vmem S256x256 .f32).view.readAt (Elt F) rc1.toLoadRect (xstg m ρ c))
            ((rM : Memref sig .tc .vmem S256x256 .f32).view.readAt (Elt F) rc1.toLoadRect (landed m ρ c))⟩,
         ⟨rc0, k0_pay2 ((xM : Memref sig .tc .vmem S256x256 .f32).view.readAt (Elt F) rc0.toLoadRect (xstg m ρ c))
            ((rM : Memref sig .tc .vmem S256x256 .f32).view.readAt (Elt F) rc0.toLoadRect (landed m ρ c))⟩]
      = outAt m ρ c := fun g => out_eq g (xstg m ρ c) (landed m ρ c)
  ihave Hout := (Entails.of_eq ((congrArg (fun f => ((oM : Memref sig .tc .vmem S256x256 .f32).view.loc (c : Thread nD τ) ↦[(oM : Memref sig .tc .vmem S256x256 .f32).view.set]{fullShare} f : sProp 𝕄)) (hout g1)).trans
    (out_view c (outAt m ρ c)).symm)) $$ Hout
  rw [wp_ret]
  imodintro
  iapply Hk
  unfold bodyPost Φ₁ Dat.owesAt Pipeline.owesWithin
  rw [show (dats m ρ 0 c).owed t₀.succ = 0 from rfl]
  isplitl [Hscr HzS0 HzS1 HzR0 HzR1]
  · isplitl [Hscr]; · iexact Hscr
    isplitl [HzS0]; · iexact HzS0
    isplitl [HzS1]; · iexact HzS1
    isplitl [HzR0]; · iexact HzR0
    iexact HzR1
  isplitl [HO]
  · iexists (insert (SemLoc.dma snd1, ()) (insert (SemLoc.dma snd0, ()) (insert (SemLoc.dma rcv1, ()) (insert (SemLoc.dma rcv0, ())
      (insert (SemLoc.reg barS, ()) W)))))
    isplitr; · ipureintro; exact fun _ _ => Or.inl trivial
    iexact HO
  isplitl [Hx]
  · iexists _; isplitr; · (ipureintro; rfl)
    iexact Hx
  iexists _; isplitr; · (ipureintro; rfl)
  iexact Hout

set_option maxRecDepth 4000 in
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
/-- The library's body obligation on core c. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m ρ c)
  unfold bodyPre' Φ₀ start
  iintro ⟨⟨⟨⟨%K, Hg⟩, Hrest⟩, Hscr⟩, Ho, Hx, Hout⟩
  iapply (sound_body m ρ K c fun _ => bodyPost m ρ c)
  unfold bodyPre
  isplitr []
  · isplitl [Hg Hrest Hscr]
    · isplitl [Hg]; · iexact Hg
      icases Hrest with ⟨H1, H2, H3, H4⟩
      isplitl [H1]; · iexact H1
      isplitl [H2]; · iexact H2
      isplitl [H3]; · iexact H3
      isplitl [H4]; · iexact H4
      iexact Hscr
    isplitl [Ho]; · iexact Ho
    isplitl [Hx] <;> iassumption
  · iintro H; iexact H

end Body

end Cert.KernelRun

end
-- ==== Proof.KernelLaunch.lean ====
/-
The launch of the exchange on all eight devices: the ghost state of the five cells of every device is made
at once — the cells' invariants allocated from the semaphores at zero, the positions kept by each cell's
owner, the duty tokens dealt to the devices that pay them (a device's barrier token and its two receive
tokens go to its partner, its two send tokens stay) — and the credit of what the partner owes a device's
barrier cell and receive cells is read off the launch.
-/
import proofs.«900503_g7700000000000504_dist_ar_v7x_xyz2x2x2_y_m256_n256_f32_1_alg».proof.Proof.KernelData

noncomputable section

namespace Cert.KernelRun

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and tokens of the exchange -/

theorem ownSemFacts : Pipeline.OwnSemFacts cfg0.spec osem := by decide

theorem share_eq (c : Dev nD) (w : Fin cfg0.W) : (dats m ρ 0 c).share w = fullShare := by unfold Dat.share; split <;> rfl

theorem kcell_injective : Function.Injective (kcell : Dev nD × Fin 5 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
def xCells : Finset (GSem nD τ sig) := Finset.univ.map ⟨kcell, kcell_injective⟩

/-- Every cell's one duty token, as minted: (cell, round 0, the duty). -/
abbrev tokOf (ck : Dev nD × Fin 5) : GSem nD τ sig × ℕ × Unit := (kcell ck, 0, ())
theorem tokOf_injective : Function.Injective (tokOf : Dev nD × Fin 5 → GSem nD τ sig × ℕ × Unit) :=
  fun a b h => kcell_injective (congrArg Prod.fst h)
def xToks : Finset (GSem nD τ sig × ℕ × Unit) := Finset.univ.map ⟨tokOf, tokOf_injective⟩

def u₀ : UU :=
  (initOf (Pipeline.cells cfgs cellOf_inj) (Pipeline.launchToks cfgs cellOf_inj), initOf xCells xToks)

/-- The duty tokens of device c's own cells. -/
def toks (c : Dev nD) : sProp 𝕄 :=
  iprop(dutyTok ER (barCell c) 0 () ∗ dutyTok ER (sndCell0 c) 0 () ∗ dutyTok ER (sndCell1 c) 0 () ∗ dutyTok ER (rcvCell0 c) 0 () ∗ dutyTok ER (rcvCell1 c) 0 ())

/-- What the launch element deals device c. -/
def G (c : Dev nD) : sProp 𝕄 :=
  iprop((bigSep Finset.univ fun k : Fin 5 => roundState ER (xrd m ρ) (kcell (c, k)) 0)
    ∗ (bigSep Finset.univ fun k : Fin 5 => iprop(atPos ER (kcell (c, k)) 0 ∅ 0 ∗ reached ER (kcell (c, k)) 0)) ∗ toks c)

/-- What the global step makes of it. -/
def G' (c : Dev nD) : sProp 𝕄 := iprop(∃ K, ghost m ρ K c)

omit [FloatOps F] in
theorem bigSep_fin5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

omit [FloatOps F] in
theorem fund_x : BI.own (ER (initOf xCells xToks)) ⊢ (|==> bigSep Finset.univ (G m ρ) : sProp 𝕄) := by
  have hX (Φ : GSem nD τ sig → sProp 𝕄) : bigSep xCells Φ = bigSep Finset.univ fun c : Dev nD => bigSep Finset.univ fun k : Fin 5 => Φ (kcell (c, k)) := by
    unfold xCells; rw [bigSep_map, bigSep_univ_prod]; rfl
  have hT : bigSep xToks (fun x => (dutyTok ER x.1 x.2.1 x.2.2 : sProp 𝕄)) = bigSep Finset.univ fun c : Dev nD => toks c := by
    unfold xToks; rw [bigSep_map, bigSep_univ_prod]
    exact bigSep_congr fun c _ => by unfold toks; rw [bigSep_fin5]; rfl
  iintro HX
  imod (Rounds.fund ER (xrd m ρ) xCells xToks) $$ HX with ⟨Hst, Hr, Hat, Htok⟩
  imodintro
  ihave Hst' := (Entails.of_eq (hX fun g => roundState ER (xrd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The send and receive semaphores are the kernel's own four; -/
theorem ownSems0_eq (c : Dev nD) : (Pipeline.ownSems0 (Ix := Unit) (Name := ℕ) (U := UU) (Lvl := ℕ) (Val := Elt F) (τ := τ) osem c : sProp 𝕄)
    = iprop(semVal (sndCell0 c) 0 ∗ semVal (sndCell1 c) 0 ∗ semVal (rcvCell0 c) 0 ∗ semVal (rcvCell1 c) 0) := by
  rw [Pipeline.ownSems0_eq_of_list c osem [0, 1, 2, 3] (by decide) (by decide)]; rfl
omit [FloatOps F] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 5 => semVal (kcell (c, k)) 0 : sProp 𝕄) := by
  rw [ownSems0_eq, unscopedSems0_eq, bigSep_fin5]
  iintro ⟨⟨HS0, HS1, HV0, HV1⟩, HB⟩
  isplitl [HB]; · iexact HB
  isplitl [HS0]; · iexact HS0
  isplitl [HS1]; · iexact HS1
  isplitl [HV0] <;> iassumption

omit [FloatOps F] in
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (xrd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 5 => semVal (kcell (c, k)) 0) ∗ bigSep Finset.univ fun k : Fin 5 => roundState ER (xrd m ρ) (kcell (c, k)) 0)
      ⊢ (|={Set.univ}=> bigSep Finset.univ fun k => iprop(∃ κ : ℕ, cellInv ER (xrd m ρ) κ (kcell (c, k))) : sProp 𝕄) from by
        rw [← bigSep_sep']
        exact (bigSep_mono fun k _ => (Rounds.body_intro ER (xrd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def records (K : Dev nD × Fin 5 → ℕ) : sProp 𝕄 :=
  iprop((bigSep Finset.univ fun ck : Dev nD × Fin 5 => cellInv ER (xrd m ρ) (K ck) (kcell ck))
    ∗ bigSep Finset.univ fun ck : Dev nD × Fin 5 => reached ER (kcell ck) 0)

instance records_persistent (K : Dev nD × Fin 5 → ℕ) : BI.Persistent (records m ρ K) := by unfold records; infer_instance

omit [FloatOps F] in
theorem inv_at (K : Dev nD × Fin 5 → ℕ) (ck : Dev nD × Fin 5) :
    (bigSep Finset.univ fun ck : Dev nD × Fin 5 => (cellInv ER (xrd m ρ) (K ck) (kcell ck) : sProp 𝕄)) ⊢ cellInv ER (xrd m ρ) (K ck) (kcell ck) :=
  bigSep_elim (Finset.mem_univ ck)
omit [FloatOps F] in
theorem reached_at (ck : Dev nD × Fin 5) :
    (bigSep Finset.univ fun ck : Dev nD × Fin 5 => (reached ER (kcell ck) 0 : sProp 𝕄)) ⊢ reached ER (kcell ck) 0 :=
  bigSep_elim (Finset.mem_univ ck)

/-- What stays with device c: its positions, and the tokens of the duties IT pays. -/
def payToks (c : Dev nD) : sProp 𝕄 :=
  iprop(dutyTok ER (barCell (peer c)) 0 () ∗ dutyTok ER (rcvCell0 (peer c)) 0 () ∗ dutyTok ER (rcvCell1 (peer c)) 0 ()
    ∗ dutyTok ER (sndCell0 c) 0 () ∗ dutyTok ER (sndCell1 c) 0 ())
def linear (c : Dev nD) : sProp 𝕄 :=
  iprop((atPos ER (barCell c) 0 ∅ 0 ∗ atPos ER (sndCell0 c) 0 ∅ 0 ∗ atPos ER (sndCell1 c) 0 ∅ 0 ∗ atPos ER (rcvCell0 c) 0 ∅ 0 ∗ atPos ER (rcvCell1 c) 0 ∅ 0) ∗ payToks c)

omit [FloatOps F] in
theorem ghost_intro (K : Dev nD × Fin 5 → ℕ) (c : Dev nD) : iprop(records m ρ K ∗ linear c) ⊢ G' m ρ c := by
  unfold records linear payToks G' ghost invs
  iintro ⟨⟨#HI, #HR⟩, ⟨HaB, HaS0, HaS1, HaV0, HaV1⟩, HtBP, HtV0P, HtV1P, HtS0, HtS1⟩
  iexists K
  isplitr
  · isplitr; · iapply (inv_at m ρ K (c, 0)); iexact HI
    isplitr; · iapply (inv_at m ρ K (c, 1)); iexact HI
    isplitr; · iapply (inv_at m ρ K (c, 2)); iexact HI
    isplitr; · iapply (inv_at m ρ K (c, 3)); iexact HI
    isplitr; · iapply (inv_at m ρ K (c, 4)); iexact HI
    isplitr; · iapply (inv_at m ρ K (peer c, 0)); iexact HI
    isplitr; · iapply (inv_at m ρ K (peer c, 3)); iexact HI
    iapply (inv_at m ρ K (peer c, 4)); iexact HI
  isplitl [HaB]; · iexact HaB
  isplitl [HaS0]; · iexact HaS0
  isplitl [HaS1]; · iexact HaS1
  isplitl [HaV0]; · iexact HaV0
  isplitl [HaV1]; · iexact HaV1
  isplitr; · iapply (reached_at (F := F) (peer c, 0)); iexact HR
  isplitr; · iapply (reached_at (F := F) (peer c, 3)); iexact HR
  isplitr; · iapply (reached_at (F := F) (peer c, 4)); iexact HR
  isplitr; · iapply (reached_at (F := F) (c, 1)); iexact HR
  isplitr; · iapply (reached_at (F := F) (c, 2)); iexact HR
  isplitl [HtBP]; · iexact HtBP
  isplitl [HtV0P]; · iexact HtV0P
  isplitl [HtV1P]; · iexact HtV1P
  isplitl [HtS0]; · iexact HtS0
  iexact HtS1

omit [FloatOps F] in
/-- The tokens dealt across each pair of partners: a device's barrier token and its two receive tokens go to its
    partner, who pays those duties; its two send tokens stay. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep', bigSep_sep', bigSep_sep',
    bigSep_univ_equiv flip (fun c : Dev nD => (dutyTok ER (barCell c) 0 () : sProp 𝕄)),
    bigSep_univ_equiv flip (fun c : Dev nD => (dutyTok ER (rcvCell0 c) 0 () : sProp 𝕄)),
    bigSep_univ_equiv flip (fun c : Dev nD => (dutyTok ER (rcvCell1 c) 0 () : sProp 𝕄))]
  iintro ⟨H1, H2, H3, H4, H5⟩
  isplitl [H1]; · iexact H1
  isplitl [H4]; · iexact H4
  isplitl [H5]; · iexact H5
  isplitl [H2]; · iexact H2
  iexact H3

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem regroup :
    (bigSep Finset.univ fun c : Dev nD => iprop((bigSep Finset.univ fun k => iprop(∃ κ : ℕ, cellInv ER (xrd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 5 => iprop(∃ κ : ℕ, cellInv ER (xrd m ρ) κ (kcell ck))),
    bigSep_congr (s := Finset.univ) (fun (c : Dev nD) _ => bigSep_sep' Finset.univ (fun k : Fin 5 => (atPos ER (kcell (c, k)) 0 ∅ 0 : sProp 𝕄)) (fun k => reached ER (kcell (c, k)) 0)),
    bigSep_sep', ← bigSep_univ_prod (fun ck : Dev nD × Fin 5 => (reached ER (kcell ck) 0 : sProp 𝕄))]
  iintro ⟨HI, ⟨Hat, #HR⟩, Htok⟩
  ihave HK := (BI.bigSep_exists_pi Finset.univ (fun (ck : Dev nD × Fin 5) (κ : ℕ) => (cellInv ER (xrd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 5 => (atPos ER (kcell (c, k)) 0 ∅ 0 : sProp 𝕄)) payToks).symm).trans
      (bigSep_mono fun c _ => show _ ⊢ linear c from Entails.of_eq (by unfold linear; rw [bigSep_fin5])))
    isplitl [Hat]; · iexact Hat
    iexact Htk

omit [FloatOps F] in
/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

omit [FloatOps F] in
theorem bar_eq_iff {a b : Dev nD} : Iff (barCell a = barCell b) (a = b) :=
  ⟨fun h => Fin.ext (congrArg (fun g : GSem nD τ sig => g.1.1.val) h), fun h => h ▸ rfl⟩
omit [FloatOps F] in
theorem rcv0_eq_iff {a b : Dev nD} : Iff (rcvCell0 a = rcvCell0 b) (a = b) :=
  ⟨fun h => Fin.ext (congrArg (fun g : GSem nD τ sig => g.1.1.val) h), fun h => h ▸ rfl⟩
omit [FloatOps F] in
theorem rcv1_eq_iff {a b : Dev nD} : Iff (rcvCell1 a = rcvCell1 b) (a = b) :=
  ⟨fun h => Fin.ext (congrArg (fun g : GSem nD τ sig => g.1.1.val) h), fun h => h ▸ rfl⟩

theorem peer_eq_iff {d c : Dev nD} : Iff (c = peer d) (d = peer c) :=
  ⟨fun h => by rw [h, peer_peer], fun h => by rw [h, peer_peer]⟩

omit [FloatOps F] in
/-- What device d owes device c's barrier cell: a unit if d is c's partner. -/
theorem owed_bar (d c : Dev nD) : O₀ d (barCell c) () = if d = peer c then 1 else 0 := by
  unfold O₀ O₁
  rw [Pi.add_apply, Finsupp.add_apply, Pi.add_apply, Finsupp.add_apply,
    tallyAt_ne_cell (fun h => rcv1_ne_bar (congrArg Prod.snd h).symm), tallyAt_ne_cell (fun h => rcv0_ne_bar (congrArg Prod.snd h).symm),
    tallyAt_apply, Finsupp.zero_apply, Nat.zero_add, Nat.zero_add]
  by_cases h : d = peer c
  · subst h; rw [peer_peer, if_pos ⟨rfl, rfl⟩, if_pos rfl]
  · rw [if_neg (fun ⟨h1, _⟩ => h (peer_eq_iff.mp (bar_eq_iff.mp h1))), if_neg h]

omit [FloatOps F] in
theorem owed_rcv0 (d c : Dev nD) : O₀ d (rcvCell0 c) () = if d = peer c then N else 0 := by
  unfold O₀ O₁
  rw [Pi.add_apply, Finsupp.add_apply, Pi.add_apply, Finsupp.add_apply,
    tallyAt_ne_cell (fun h => rcv1_ne_rcv0 (congrArg Prod.snd h).symm), tallyAt_apply,
    tallyAt_ne_cell (fun h => rcv0_ne_bar (congrArg Prod.snd h)), Finsupp.zero_apply, Nat.zero_add, Nat.add_zero]
  by_cases h : d = peer c
  · subst h; rw [peer_peer, if_pos ⟨rfl, rfl⟩, if_pos rfl]
  · rw [if_neg (fun ⟨h1, _⟩ => h (peer_eq_iff.mp (rcv0_eq_iff.mp h1))), if_neg h]

omit [FloatOps F] in
theorem owed_rcv1 (d c : Dev nD) : O₀ d (rcvCell1 c) () = if d = peer c then N else 0 := by
  unfold O₀ O₁
  rw [Pi.add_apply, Finsupp.add_apply, Pi.add_apply, Finsupp.add_apply,
    tallyAt_apply, tallyAt_ne_cell (fun h => rcv1_ne_rcv0 (congrArg Prod.snd h)),
    tallyAt_ne_cell (fun h => rcv1_ne_bar (congrArg Prod.snd h)), Finsupp.zero_apply, Nat.add_zero, Nat.add_zero]
  by_cases h : d = peer c
  · subst h; rw [peer_peer, if_pos ⟨rfl, rfl⟩, if_pos rfl]
  · rw [if_neg (fun ⟨h1, _⟩ => h (peer_eq_iff.mp (rcv1_eq_iff.mp h1))), if_neg h]

omit [FloatOps F] in
theorem launch_bar (c : Dev nD) :
    tallyOn (barCell c) (launchCredit (Pipeline.owing O₀) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar d c,
    Finset.sum_ite_eq' Finset.univ (peer c) fun _ => 1, if_pos (Finset.mem_univ _)]

omit [FloatOps F] in
theorem launch_rcv0 (c : Dev nD) :
    tallyOn (rcvCell0 c) (launchCredit (Pipeline.owing O₀) 0 (rcvCell0 c)) = (tallyAt (rcvCell0 c) () N : CellTallies nD τ sig Unit) := by
  unfold tallyAt; refine congrArg _ (Finsupp.ext fun u => ?_); cases u
  rw [Pipeline.launchCredit_owing, Finsupp.single_eq_same, Finset.sum_congr rfl fun d _ => owed_rcv0 d c,
    Finset.sum_ite_eq' Finset.univ (peer c) fun _ => N, if_pos (Finset.mem_univ _)]

omit [FloatOps F] in
theorem launch_rcv1 (c : Dev nD) :
    tallyOn (rcvCell1 c) (launchCredit (Pipeline.owing O₀) 0 (rcvCell1 c)) = (tallyAt (rcvCell1 c) () N : CellTallies nD τ sig Unit) := by
  unfold tallyAt; refine congrArg _ (Finsupp.ext fun u => ?_); cases u
  rw [Pipeline.launchCredit_owing, Finsupp.single_eq_same, Finset.sum_congr rfl fun d _ => owed_rcv1 d c,
    Finset.sum_ite_eq' Finset.univ (peer c) fun _ => N, if_pos (Finset.mem_univ _)]

omit [FloatOps F] in
theorem creds (c : Dev nD) :
    (Pipeline.launchCred O₀ c : sProp 𝕄) ⊢ iprop(cred (tallyAt (barCell c) () 1) ∗ cred (tallyAt (rcvCell0 c) () N) ∗ cred (tallyAt (rcvCell1 c) () N)) := by
  unfold Pipeline.launchCred
  rw [bigSep_univ_at _ (SemLoc.reg barS), launch_bar]
  refine sep_mono_right ?_
  rw [bigSep_erase (i := SemLoc.dma rcv0) (Finset.mem_erase.mpr ⟨rcv0_ne_bar, Finset.mem_univ _⟩), launch_rcv0]
  refine sep_mono_right ?_
  rw [← launch_rcv1]
  exact bigSep_elim (Finset.mem_erase.mpr ⟨rcv1_ne_rcv0, Finset.mem_erase.mpr ⟨rcv1_ne_bar, Finset.mem_univ _⟩⟩)

/-! ### The launch theorem's side conditions -/

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN0, HN1⟩
  imodintro
  unfold start G'
  isplitl
  · isplitl [HG]; · iexact HG
    isplitl [H1]; · iexact H1
    isplitl [HN0]; · iexact HN0
    isplitl [HN1]; · iexact HN1
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f, Hr⟩⟩
  isplitl [Hs]; · iexact Hs
  iexists f; iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ m ρ c from rfl, scopedRest0_eq, ownSems0_eq]
  unfold Φ₁
  iintro ⟨Hr, HzS0, HzS1, HzV0, HzV1⟩
  isplitr; · iempintro
  isplitl [HzS0 HzS1 HzV0 HzV1]
  · isplitl [HzS0]; · iexact HzS0
    isplitl [HzS1]; · iexact HzS1
    isplitl [HzV0] <;> iassumption
  iexists (landed m ρ c); iexact Hr

theorem waits (c : Dev nD) : (levAts L lv : sProp 𝕄) ⊢ Pipeline.cellsWaits cfgs (dats m ρ) () 0 c :=
  Pipeline.cellsWaits_intro cfgs (dats m ρ) () 0 c fun w s t =>
    mayWait_low c _ (by fin_cases w <;> fin_cases s <;> decide) (by fin_cases w <;> fin_cases s <;> decide) _ (by
      rcases t with ⟨_ | _, ht⟩
      · exact Or.inl rfl
      · exact Or.inr rfl)

end Cert.KernelRun

end
-- ==== Proof.KernelRun.lean ====
/-
The run of the kernel on the mesh: every weakly fair execution of the eight devices' kernels — each
pair of partners greeting on the barrier semaphore, then exchanging the halves of their blocks — terminates
without a fault, and leaves on every device the input block unchanged and the result block holding the
entry-by-entry sum of the device's block and its partner's.
-/
import proofs.«900503_g7700000000000504_dist_ar_v7x_xyz2x2x2_y_m256_n256_f32_1_alg».proof.Proof.KernelBody
import proofs.«900503_g7700000000000504_dist_ar_v7x_xyz2x2x2_y_m256_n256_f32_1_alg».proof.Proof.KernelLaunch
import proofs.«900503_g7700000000000504_dist_ar_v7x_xyz2x2x2_y_m256_n256_f32_1_alg».proof.Proof.Gen.Kernel.Points
import Idealize.ShloMosaic.Lib.Pipeline.Value

noncomputable section

namespace Cert.KernelRun

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of eight devices, for any float values, from any memory with zero counters: every weakly fair
    execution of @main terminates, and every final state has each device's arrays at the computed contents. -/
theorem run_main : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_x m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- The input array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

omit [FloatOps F] in
/-- The one block of the result window is the whole result array: reading it back reads the array. -/
theorem blk1_read (t : Fin cfg0.N) (X : (main_v1 : Ref sig .tc).ty.Contents (Elt F)) :
    ((cfg0.win (1 : Fin 2)).blk t).view.read (Elt F) X = X :=
  Memref.read_access_unit_zero (Elt F) main_v1 (funext fun a => Nat.zero_mul _) _ X

/-- The result array after the run holds the one block the one point wrote back: the sum. -/
theorem finalA_out (c : Dev nD) : finalA m ρ c (1 : Fin 2) = outAt m ρ c :=
  (dats (F := F) m ρ 0 c).arrAt_eq_of_cover (1 : Fin 2) (outAt m ρ c)
    (fun t _ => (blk1_read t (outAt m ρ c)).symm)
    (fun i => ⟨t₀, flush0_1 t₀, by
      rw [View.set_slice_whole, Rect.mem_set_unit]
      intro a
      refine ⟨?_, ?_⟩
      · show 0 * _ ≤ _; rw [Nat.zero_mul]; exact Nat.zero_le _
      · show _ < 0 * _ + _; rw [Nat.zero_mul, Nat.zero_add]; exact (i a).isLt⟩)

/-- The staged input block is the device's input array: the one block of the input window is the whole array. -/
theorem xstg_eq (c : Dev nD) : xstg m ρ c = m ((c : Thread nD τ).loc main_arg0) :=
  Memref.read_access_unit_zero (Elt F) main_arg0 (funext fun a => Nat.zero_mul _) _ _

/-- The sum, over the devices' input arrays. -/
theorem outAt_eq (c : Dev nD) :
    outAt m ρ c = addf (m ((c : Thread nD τ).loc main_arg0)) (m ((peer c : Thread nD τ).loc main_arg0)) := by
  unfold outAt; rw [xstg_eq, xstg_eq]

/-- THE RUN, with every result named: on each device the result array ends as the sum of the device's input array and
    its partner's, and the input array ends as it began. -/
theorem run : θ_run defs (onTc (τ := τ) (main (F := F))) ⟨m, fun _ => 0, ρ⟩ (fun r => ∀ c : Dev nD,
    r.2.mem ((c : Thread nD τ).loc main_v1) = addf (m ((c : Thread nD τ).loc main_arg0)) (m ((peer c : Thread nD τ).loc main_arg0))
      ∧ r.2.mem ((c : Thread nD τ).loc main_arg0) = m ((c : Thread nD τ).loc main_arg0)) :=
  (θ_run defs _ _).mono (fun r h c => ⟨(h c 1).trans ((finalA_out m ρ c).trans (outAt_eq m ρ c)), (h c 0).trans (finalA_x m ρ c)⟩) (run_main m ρ)

/-- info: 'Cert.KernelRun.run' depends on axioms: [propext, Classical.choice, Quot.sound] -/
#guard_msgs in #print axioms run

end Cert.KernelRun

end
-- ==== Proof.KernelIdealBase.lean ====
/-
The objects the run of the all-reduce kernel is stated over: the partner of a device on the mesh, the
three VMEM buffers a device's kernel instance works in and their halves (rows 0..127 and 128..255), and
the semaphores of the exchange.
-/
import proofs.«900503_g7700000000000504_dist_ar_v7x_xyz2x2x2_y_m256_n256_f32_1_alg».proof.Proof.Gen.KernelIdeal
import proofs.«900503_g7700000000000504_dist_ar_v7x_xyz2x2x2_y_m256_n256_f32_1_alg».proof.Proof.Gen.KernelIdeal.Skeleton
import proofs.«900503_g7700000000000504_dist_ar_v7x_xyz2x2x2_y_m256_n256_f32_1_alg».proof.Proof.Gen.KernelIdeal.Launch
import Idealize.ShloMosaic.Lib.Pipeline.Launch
import Idealize.ShloMosaic.Lib.Pipeline.Kit
import Idealize.ShloMosaic.Lib.Tactic

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The partner on mesh axis y

Device `c` sits at mesh coordinates (c / 4, c / 2 % 2, c % 2); its partner has the middle coordinate
flipped and the other two kept, which on the linear id is adding or removing 2. -/

def peer (c : Dev nD) : Dev nD :=
  ⟨(4 * (c.val / 4) + (c.val % 2) + 2) - 2 * ((c.val / 2) % 2), by have h : c.val < 8 := c.isLt; show _ < 8; omega⟩

theorem peer_peer (c : Dev nD) : peer (peer c) = c := by revert c; decide
theorem peer_ne (c : Dev nD) : peer c ≠ c := by revert c; decide

/-- The three device ids the kernel computes (for its signal and its two copies) all name the partner. -/
theorem dev1_eq (c : Dev nD) : (⟨k0_dev1 c, Facts₀.k0_dev1_lt c⟩ : Dev nD) = peer c := Fin.ext (k0_dev1_eq c)
theorem dev2_eq (c : Dev nD) : (⟨k0_dev2 c, Facts₀.k0_dev2_lt c⟩ : Dev nD) = peer c := Fin.ext (k0_dev2_eq c)
theorem dev3_eq (c : Dev nD) : (⟨k0_dev3 c, Facts₀.k0_dev3_lt c⟩ : Dev nD) = peer c := Fin.ext (k0_dev3_eq c)

def flip : Dev nD ≃ Dev nD := ⟨peer, peer, peer_peer, peer_peer⟩

/-! ## Buffers, halves, semaphores -/

/-- The device's block of the input (staged), the result block (staged), the landing buffer. -/
abbrev xM : Memref sig .tc .vmem S256x256 .f32 := Memref.whole cc0_stg0_0
abbrev oM : Memref sig .tc .vmem S256x256 .f32 := Memref.whole cc0_stg1_0
abbrev rM : Memref sig .tc .vmem S256x256 .f32 := Memref.whole cc0_scratch0

/-- Rows 0..127 and rows 128..255 of a 256x256 buffer. -/
abbrev rc0 : Rect S256x256 := Rect.unit (s := S256x256) ![0, 0] S128x256.size Facts₀.inb_S256x256_S128x256_0_0
abbrev rc1 : Rect S256x256 := Rect.unit (s := S256x256) ![128, 0] S128x256.size Facts₀.inb_S256x256_S128x256_128_0

abbrev xS0 : Memref sig .tc .vmem S128x256 .f32 := xM.slice rc0 (fun _ => rfl)
abbrev xS1 : Memref sig .tc .vmem S128x256 .f32 := xM.slice rc1 (fun _ => rfl)
abbrev rS0 : Memref sig .tc .vmem S128x256 .f32 := rM.slice rc0 (fun _ => rfl)
abbrev rS1 : Memref sig .tc .vmem S128x256 .f32 := rM.slice rc1 (fun _ => rfl)

/-- The runtime's barrier semaphore of collective id 0; the send and the receive semaphore of each half. -/
abbrev barS : Sem sig := (SemArray.scalar (sig.barrier 0 rfl) : Sems sig S_).sem
abbrev snd0 : DmaSem sig := ((cc0_scratch1.slice (Rect.unit (s := S2) ![0] S1.size Facts₀.inb_S2_S1_0)).squeeze S_ Facts₀.squeezes_S1_S_).sem
abbrev snd1 : DmaSem sig := ((cc0_scratch1.slice (Rect.unit (s := S2) ![1] S1.size Facts₀.inb_S2_S1_1)).squeeze S_ Facts₀.squeezes_S1_S_).sem
abbrev rcv0 : DmaSem sig := ((cc0_scratch2.slice (Rect.unit (s := S2) ![0] S1.size Facts₀.inb_S2_S1_0)).squeeze S_ Facts₀.squeezes_S1_S_).sem
abbrev rcv1 : DmaSem sig := ((cc0_scratch2.slice (Rect.unit (s := S2) ![1] S1.size Facts₀.inb_S2_S1_1)).squeeze S_ Facts₀.squeezes_S1_S_).sem

theorem snd0_eq : snd0 = (2 : DmaSem sig) := by decide
theorem snd1_eq : snd1 = (3 : DmaSem sig) := by decide
theorem rcv0_eq : rcv0 = (4 : DmaSem sig) := by decide
theorem rcv1_eq : rcv1 = (5 : DmaSem sig) := by decide

end Cert.KernelIdealRun

end
-- ==== Proof.KernelIdealSched.lean ====
/-
The exchange protocol of the all-reduce kernel, as a schedule of rounds.

Every device c has five semaphores in play: the barrier semaphore, on which its partner announces that
it has entered the kernel, and for each half k of the block a send semaphore (credited when the device's
own copy of half k has been read out of its input block) and a receive semaphore (credited when the
partner's copy of half k has landed in its landing buffer). Each of the five cells has exactly one duty,
in round 0. What a duty hands its cell's owner:
  * barrier cell of c, paid by the partner's signal: both halves of the PARTNER's landing buffer, at
    whatever they hold, and the fact that the partner's two receive cells are at round 0 — what c
    needs in order to copy into them;
  * receive cell k of c, paid by the partner's copy: half k of c's landing buffer holding half k of
    the partner's input block;
  * send cell k of c, paid by c's own copy: the share of half k of c's input block that was lent
    to the copy.
-/
import proofs.«900503_g7700000000000504_dist_ar_v7x_xyz2x2x2_y_m256_n256_f32_1_alg».proof.Proof.KernelIdealBase

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy beside the exchange's -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Cells -/

abbrev barCell (c : Dev nD) : GSem nD τ sig := ((c : Thread nD τ), .reg barS)
abbrev sndCell0 (c : Dev nD) : GSem nD τ sig := ((c : Thread nD τ), .dma snd0)
abbrev sndCell1 (c : Dev nD) : GSem nD τ sig := ((c : Thread nD τ), .dma snd1)
abbrev rcvCell0 (c : Dev nD) : GSem nD τ sig := ((c : Thread nD τ), .dma rcv0)
abbrev rcvCell1 (c : Dev nD) : GSem nD τ sig := ((c : Thread nD τ), .dma rcv1)

/-- The kernel's own (scoped) semaphores: the two send and the two receive semaphores; -/
abbrev osem : Fin 4 → SemLoc sig := fun | 0 => .dma snd0 | 1 => .dma snd1 | 2 => .dma rcv0 | 3 => .dma rcv1
/-- all five of the exchange, the barrier semaphore first. -/
abbrev csem : Fin 5 → SemLoc sig := fun | 0 => .reg barS | 1 => .dma snd0 | 2 => .dma snd1 | 3 => .dma rcv0 | 4 => .dma rcv1
abbrev kcell (ck : Dev nD × Fin 5) : GSem nD τ sig := ((ck.1 : Thread nD τ), csem ck.2)

/-- What a copy of one half credits its two semaphores with. -/
abbrev N : ℕ := (rS0 : Memref sig .tc .vmem S128x256 .f32).view.dmaCredit
theorem N_pos : 0 < N := View.dmaCredit_pos _ (by decide)
theorem N_eq1 : (rS1 : Memref sig .tc .vmem S128x256 .f32).view.dmaCredit = N := rfl

/-! ## Contents -/

/-- Device c's block of the input, as the pipeline stages it. -/
def xstg (c : Dev nD) : (cc0_stg0_0 : Ref sig .tc).ty.Contents (Elt F) :=
  (win0_0.blk (0 : Fin 1)).view.read (Elt F) ((s₀ m ρ).mem ((c : Thread nD τ).loc main_arg0))

/-- What lands in device c's landing buffer: its partner's block. -/
def landed (c : Dev nD) : Buf (Elt F) ((rM : Memref sig .tc .vmem S256x256 .f32).view.loc (c : Thread nD τ)) := xstg m ρ (peer c)

/-! ## The schedule -/

def barPay (c : Dev nD) : sProp 𝕄 :=
  iprop((∃ f, (rS0 : Memref sig .tc .vmem S128x256 .f32).view.loc (peer c : Thread nD τ) ↦[(rS0 : Memref sig .tc .vmem S128x256 .f32).view.set]{fullShare} f)
    ∗ (∃ f, (rS1 : Memref sig .tc .vmem S128x256 .f32).view.loc (peer c : Thread nD τ) ↦[(rS1 : Memref sig .tc .vmem S128x256 .f32).view.set]{fullShare} f))

abbrev IsBar (g : GSem nD τ sig) : Prop := g.1.2 = .tc ∧ g.2 = .reg barS
abbrev IsXfer (g : GSem nD τ sig) : Prop :=
  g.1.2 = .tc ∧ (g.2 = .dma snd0 ∨ g.2 = .dma snd1 ∨ g.2 = .dma rcv0 ∨ g.2 = .dma rcv1)

/-- One round, round 0, one duty a cell: a barrier cell's of one unit, a send or receive cell's of a half's credit. -/
def xrd : Rounds.Schedule (GSem nD τ sig) Unit 𝕄 where
  duties g r := if r = 0 ∧ (IsBar g ∨ IsXfer g) then {()} else ∅
  unitless _ := False
  amount g _ _ := if g.2 = .reg barS then 1 else N
  payload g _ _ :=
    if g.2 = .reg barS then barPay g.1.1
    else if g.2 = .dma rcv0 then
      ((rS0 : Memref sig .tc .vmem S128x256 .f32).view.loc (g.1.1 : Thread nD τ) ↦[(rS0 : Memref sig .tc .vmem S128x256 .f32).view.set]{fullShare} landed m ρ g.1.1)
    else if g.2 = .dma rcv1 then
      ((rS1 : Memref sig .tc .vmem S128x256 .f32).view.loc (g.1.1 : Thread nD τ) ↦[(rS1 : Memref sig .tc .vmem S128x256 .f32).view.set]{fullShare} landed m ρ g.1.1)
    else if g.2 = .dma snd0 then
      ((xS0 : Memref sig .tc .vmem S128x256 .f32).view.loc (g.1.1 : Thread nD τ) ↦[(xS0 : Memref sig .tc .vmem S128x256 .f32).view.set]{fullShare.right} xstg m ρ g.1.1)
    else if g.2 = .dma snd1 then
      ((xS1 : Memref sig .tc .vmem S128x256 .f32).view.loc (g.1.1 : Thread nD τ) ↦[(xS1 : Memref sig .tc .vmem S128x256 .f32).view.set]{fullShare.right} xstg m ρ g.1.1)
    else iprop(emp)
  amount_pos g _ _ _ := by
    by_cases h : g.2 = .reg barS
    · rw [if_pos h]; exact Nat.one_pos
    · rw [if_neg h]; exact N_pos

instance xrd_payload_storable (g : GSem nD τ sig) (r : ℕ) (d : Unit) :
    BI.Storable (upEmb : UEmb _ 𝕄) ((xrd (F := F) m ρ).payload g r d) := by
  dsimp only [xrd]
  unfold barPay
  (repeat' split) <;> infer_instance

section Sched
variable (c : Dev nD)

theorem snd0_ne_bar : (SemLoc.dma snd0 : SemLoc sig) ≠ .reg barS := fun h => by cases h
theorem snd1_ne_bar : (SemLoc.dma snd1 : SemLoc sig) ≠ .reg barS := fun h => by cases h
theorem rcv0_ne_bar : (SemLoc.dma rcv0 : SemLoc sig) ≠ .reg barS := fun h => by cases h
theorem rcv1_ne_bar : (SemLoc.dma rcv1 : SemLoc sig) ≠ .reg barS := fun h => by cases h
theorem rcv1_ne_rcv0 : (SemLoc.dma rcv1 : SemLoc sig) ≠ .dma rcv0 := by decide
theorem snd0_ne_rcv0 : (SemLoc.dma snd0 : SemLoc sig) ≠ .dma rcv0 := by decide
theorem snd0_ne_rcv1 : (SemLoc.dma snd0 : SemLoc sig) ≠ .dma rcv1 := by decide
theorem snd1_ne_rcv0 : (SemLoc.dma snd1 : SemLoc sig) ≠ .dma rcv0 := by decide
theorem snd1_ne_rcv1 : (SemLoc.dma snd1 : SemLoc sig) ≠ .dma rcv1 := by decide
theorem snd1_ne_snd0 : (SemLoc.dma snd1 : SemLoc sig) ≠ .dma snd0 := by decide

omit [FloatOps F] in
theorem duties_bar : (xrd (F := F) m ρ).duties (barCell c) 0 = {()} := by dsimp only [xrd]; exact if_pos ⟨rfl, .inl ⟨rfl, rfl⟩⟩
omit [FloatOps F] in
theorem duties_snd0 : (xrd (F := F) m ρ).duties (sndCell0 c) 0 = {()} := by dsimp only [xrd]; exact if_pos ⟨rfl, .inr ⟨rfl, .inl rfl⟩⟩
omit [FloatOps F] in
theorem duties_snd1 : (xrd (F := F) m ρ).duties (sndCell1 c) 0 = {()} := by dsimp only [xrd]; exact if_pos ⟨rfl, .inr ⟨rfl, .inr (.inl rfl)⟩⟩
omit [FloatOps F] in
theorem duties_rcv0 : (xrd (F := F) m ρ).duties (rcvCell0 c) 0 = {()} := by dsimp only [xrd]; exact if_pos ⟨rfl, .inr ⟨rfl, .inr (.inr (.inl rfl))⟩⟩
omit [FloatOps F] in
theorem duties_rcv1 : (xrd (F := F) m ρ).duties (rcvCell1 c) 0 = {()} := by dsimp only [xrd]; exact if_pos ⟨rfl, .inr ⟨rfl, .inr (.inr (.inr rfl))⟩⟩
omit [FloatOps F] in
theorem duties_later (g : GSem nD τ sig) : ∀ r, 1 ≤ r → (xrd (F := F) m ρ).duties g r = ∅ :=
  fun r hr => by dsimp only [xrd]; rw [if_neg fun h => by omega]

omit [FloatOps F] in
theorem amount_bar (d : Unit) : (xrd (F := F) m ρ).amount (barCell c) 0 d = 1 := by dsimp only [xrd]; exact if_pos rfl
omit [FloatOps F] in
theorem amount_snd0 (d : Unit) : (xrd (F := F) m ρ).amount (sndCell0 c) 0 d = N := by dsimp only [xrd]; exact if_neg snd0_ne_bar
omit [FloatOps F] in
theorem amount_snd1 (d : Unit) : (xrd (F := F) m ρ).amount (sndCell1 c) 0 d = N := by dsimp only [xrd]; exact if_neg snd1_ne_bar
omit [FloatOps F] in
theorem amount_rcv0 (d : Unit) : (xrd (F := F) m ρ).amount (rcvCell0 c) 0 d = N := by dsimp only [xrd]; exact if_neg rcv0_ne_bar
omit [FloatOps F] in
theorem amount_rcv1 (d : Unit) : (xrd (F := F) m ρ).amount (rcvCell1 c) 0 d = N := by dsimp only [xrd]; exact if_neg rcv1_ne_bar

omit [FloatOps F] in
theorem expect_bar : (xrd (F := F) m ρ).expect (barCell c) 0 = 1 := by
  unfold Schedule.expect Schedule.amountOf; rw [duties_bar, Finset.sum_singleton, amount_bar]
omit [FloatOps F] in
theorem expect_snd0 : (xrd (F := F) m ρ).expect (sndCell0 c) 0 = N := by
  unfold Schedule.expect Schedule.amountOf; rw [duties_snd0, Finset.sum_singleton, amount_snd0]
omit [FloatOps F] in
theorem expect_snd1 : (xrd (F := F) m ρ).expect (sndCell1 c) 0 = N := by
  unfold Schedule.expect Schedule.amountOf; rw [duties_snd1, Finset.sum_singleton, amount_snd1]
omit [FloatOps F] in
theorem expect_rcv0 : (xrd (F := F) m ρ).expect (rcvCell0 c) 0 = N := by
  unfold Schedule.expect Schedule.amountOf; rw [duties_rcv0, Finset.sum_singleton, amount_rcv0]
omit [FloatOps F] in
theorem expect_rcv1 : (xrd (F := F) m ρ).expect (rcvCell1 c) 0 = N := by
  unfold Schedule.expect Schedule.amountOf; rw [duties_rcv1, Finset.sum_singleton, amount_rcv1]

omit [FloatOps F] in
theorem payload_bar (d : Unit) : (xrd (F := F) m ρ).payload (barCell c) 0 d = barPay c := by dsimp only [xrd]; rw [if_pos rfl]
omit [FloatOps F] in
theorem payload_rcv0 (d : Unit) : (xrd (F := F) m ρ).payload (rcvCell0 c) 0 d
    = ((rS0 : Memref sig .tc .vmem S128x256 .f32).view.loc (c : Thread nD τ) ↦[(rS0 : Memref sig .tc .vmem S128x256 .f32).view.set]{fullShare} landed m ρ c) := by
  dsimp only [xrd]; rw [if_neg rcv0_ne_bar, if_pos rfl]
omit [FloatOps F] in
theorem payload_rcv1 (d : Unit) : (xrd (F := F) m ρ).payload (rcvCell1 c) 0 d
    = ((rS1 : Memref sig .tc .vmem S128x256 .f32).view.loc (c : Thread nD τ) ↦[(rS1 : Memref sig .tc .vmem S128x256 .f32).view.set]{fullShare} landed m ρ c) := by
  dsimp only [xrd]; rw [if_neg rcv1_ne_bar, if_neg rcv1_ne_rcv0, if_pos rfl]
omit [FloatOps F] in
theorem payload_snd0 (d : Unit) : (xrd (F := F) m ρ).payload (sndCell0 c) 0 d
    = ((xS0 : Memref sig .tc .vmem S128x256 .f32).view.loc (c : Thread nD τ) ↦[(xS0 : Memref sig .tc .vmem S128x256 .f32).view.set]{fullShare.right} xstg m ρ c) := by
  dsimp only [xrd]; rw [if_neg snd0_ne_bar, if_neg snd0_ne_rcv0, if_neg snd0_ne_rcv1, if_pos rfl]
omit [FloatOps F] in
theorem payload_snd1 (d : Unit) : (xrd (F := F) m ρ).payload (sndCell1 c) 0 d
    = ((xS1 : Memref sig .tc .vmem S128x256 .f32).view.loc (c : Thread nD τ) ↦[(xS1 : Memref sig .tc .vmem S128x256 .f32).view.set]{fullShare.right} xstg m ρ c) := by
  dsimp only [xrd]; rw [if_neg snd1_ne_bar, if_neg snd1_ne_rcv0, if_neg snd1_ne_rcv1, if_neg snd1_ne_snd0, if_pos rfl]

omit [FloatOps F] in
/-- The rest of a cell's round, no duty taken, is its one duty's payload. -/
theorem rest_bar : bigSep ((xrd (F := F) m ρ).duties (barCell c) 0 \ ∅) (fun d => (xrd (F := F) m ρ).payload (barCell c) 0 d) = barPay c := by
  rw [Finset.sdiff_empty, duties_bar, bigSep_singleton, payload_bar]
omit [FloatOps F] in
theorem rest_rcv0 : bigSep ((xrd (F := F) m ρ).duties (rcvCell0 c) 0 \ ∅) (fun d => (xrd (F := F) m ρ).payload (rcvCell0 c) 0 d)
    = ((rS0 : Memref sig .tc .vmem S128x256 .f32).view.loc (c : Thread nD τ) ↦[(rS0 : Memref sig .tc .vmem S128x256 .f32).view.set]{fullShare} landed m ρ c) := by
  rw [Finset.sdiff_empty, duties_rcv0, bigSep_singleton, payload_rcv0]
omit [FloatOps F] in
theorem rest_rcv1 : bigSep ((xrd (F := F) m ρ).duties (rcvCell1 c) 0 \ ∅) (fun d => (xrd (F := F) m ρ).payload (rcvCell1 c) 0 d)
    = ((rS1 : Memref sig .tc .vmem S128x256 .f32).view.loc (c : Thread nD τ) ↦[(rS1 : Memref sig .tc .vmem S128x256 .f32).view.set]{fullShare} landed m ρ c) := by
  rw [Finset.sdiff_empty, duties_rcv1, bigSep_singleton, payload_rcv1]
omit [FloatOps F] in
theorem rest_snd0 : bigSep ((xrd (F := F) m ρ).duties (sndCell0 c) 0 \ ∅) (fun d => (xrd (F := F) m ρ).payload (sndCell0 c) 0 d)
    = ((xS0 : Memref sig .tc .vmem S128x256 .f32).view.loc (c : Thread nD τ) ↦[(xS0 : Memref sig .tc .vmem S128x256 .f32).view.set]{fullShare.right} xstg m ρ c) := by
  rw [Finset.sdiff_empty, duties_snd0, bigSep_singleton, payload_snd0]
omit [FloatOps F] in
theorem rest_snd1 : bigSep ((xrd (F := F) m ρ).duties (sndCell1 c) 0 \ ∅) (fun d => (xrd (F := F) m ρ).payload (sndCell1 c) 0 d)
    = ((xS1 : Memref sig .tc .vmem S128x256 .f32).view.loc (c : Thread nD τ) ↦[(xS1 : Memref sig .tc .vmem S128x256 .f32).view.set]{fullShare.right} xstg m ρ c) := by
  rw [Finset.sdiff_empty, duties_snd1, bigSep_singleton, payload_snd1]

end Sched

/-! ## What each core owes at launch; the levels -/

/-- Device c owes its partner's two receive cells a half's credit each and its partner's barrier cell one unit —
    summed so that the signal peels the last summand, the first copy the middle one. -/
def O₁ (c : Dev nD) : CellTallies nD τ sig Unit := tallyAt (rcvCell1 (peer c)) () N + tallyAt (rcvCell0 (peer c)) () N
def O₀ (c : Dev nD) : CellTallies nD τ sig Unit := O₁ c + tallyAt (barCell (peer c)) () 1

def L (g : GSem nD τ sig) : Finset Unit := if g.1.2 = .tc then {()} else ∅
/-- barrier cells at 1, receive cells at 2, everything else (staging, send) at 0. -/
def lv (g : GSem nD τ sig) (_ : Unit) : ℕ :=
  if g.2 = .reg barS then 1 else if g.2 = .dma rcv0 ∨ g.2 = .dma rcv1 then 2 else 0

theorem L_of_ne (g : GSem nD τ sig) (h : g.1.2 ≠ .tc) : L g = ∅ := if_neg h
theorem L_tc (c : Dev nD) (sm : SemLoc sig) : L ((c : Thread nD τ), sm) = {()} := if_pos rfl

theorem O₁_pos {c : Dev nD} {g : GSem nD τ sig} {u : Unit} (h : 0 < O₁ c g u) :
    g = rcvCell1 (peer c) ∨ g = rcvCell0 (peer c) := by
  unfold O₁ at h
  rw [Pi.add_apply, Finsupp.add_apply, tallyAt_apply, tallyAt_apply] at h
  by_contra hn
  rw [not_or] at hn
  rw [if_neg (fun h' => hn.1 h'.1), if_neg (fun h' => hn.2 h'.1)] at h
  exact Nat.lt_irrefl 0 h

theorem O₀_pos {c : Dev nD} {g : GSem nD τ sig} {u : Unit} (h : 0 < O₀ c g u) :
    g = rcvCell1 (peer c) ∨ g = rcvCell0 (peer c) ∨ g = barCell (peer c) := by
  unfold O₀ O₁ at h
  rw [Pi.add_apply, Finsupp.add_apply, Pi.add_apply, Finsupp.add_apply, tallyAt_apply, tallyAt_apply, tallyAt_apply] at h
  by_contra hn
  rw [not_or, not_or] at hn
  rw [if_neg (fun h' => hn.1 h'.1), if_neg (fun h' => hn.2.1 h'.1), if_neg (fun h' => hn.2.2 h'.1)] at h
  exact Nat.lt_irrefl 0 h

theorem lv_rcv0 (c : Dev nD) : lv (rcvCell0 c) () = 2 := by
  dsimp only [lv]; rw [if_neg rcv0_ne_bar, if_pos (.inl rfl)]
theorem lv_rcv1 (c : Dev nD) : lv (rcvCell1 c) () = 2 := by
  dsimp only [lv]; rw [if_neg rcv1_ne_bar, if_pos (.inr rfl)]
theorem lv_bar (c : Dev nD) : lv (barCell c) () = 1 := by
  dsimp only [lv]; rw [if_pos rfl]

omit [FloatOps F] in
/-- A wait on a cell that is neither a barrier nor a receive cell (a staging cell, a send cell) is below all a device can owe. -/
theorem mayWait_low (c : Dev nD) (q : DmaSem sig) (hq0 : SemLoc.dma q ≠ .dma rcv0) (hq1 : SemLoc.dma q ≠ .dma rcv1)
    (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl | rfl <;> exact Finset.mem_singleton_self _)
      (fun p hp => by
        rw [Finset.mem_singleton.mp hp]; dsimp only [lv]
        rw [if_neg (fun h => by cases h), if_neg (fun h => h.elim hq0 hq1)])
      (fun g u hg => by
        rcases O₀_pos hg with rfl | rfl | rfl
        · rw [lv_rcv1]; decide
        · rw [lv_rcv0]; decide
        · rw [lv_bar]; decide)
  · rw [MayWait_zero]; iintro -; iempintro

omit [FloatOps F] in
/-- At its barrier wait a device owes its partner's two receive credits only: receive cells, above its barrier cell. -/
theorem mayWait_bar (c : Dev nD) :
    (levAts L lv : sProp 𝕄) ⊢ MayWait (c : Thread nD τ) (.reg barS) () (O₁ c) :=
  MayOwe.of_cut (L := L) (lev := lv) 1 (fun p hp => by rw [Finset.mem_singleton.mp hp, L_tc]; exact Finset.mem_singleton_self _)
    (fun g u hg => by rcases O₁_pos hg with rfl | rfl <;> exact Finset.mem_singleton_self _)
    (fun p hp => by rw [Finset.mem_singleton.mp hp]; exact (lv_bar c).le)
    (fun g u hg => by
      rcases O₁_pos hg with rfl | rfl
      · rw [lv_rcv1]; decide
      · rw [lv_rcv0]; decide)

end Cert.KernelIdealRun

end
-- ==== Proof.KernelIdealData.lean ====
/-
The proof data of the kernel's one pipeline point on each device: the ghost state of the exchange a device
starts from, what it holds before and after the body (the landing buffer at some contents; then the landing
buffer holding the partner's block and the four transfer semaphores back at zero), and the contents of the two
staged windows — the device's input block, and the sum of the two blocks in the result.
-/
import proofs.«900503_g7700000000000504_dist_ar_v7x_xyz2x2x2_y_m256_n256_f32_1_alg».proof.Proof.KernelIdealSched

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The kernel's result on device c: its block plus its partner's, entry by entry. -/
def outAt (c : Dev nD) : (cc0_stg1_0 : Ref sig .tc).ty.Contents (Elt F) := addf (xstg m ρ c) (xstg m ρ (peer c))

/-- The cells' invariants device c's body opens, under the names the launch allocated them at: its own five,
    its partner's barrier cell (its signal) and its partner's two receive cells (its copies). -/
def invs (K : Dev nD × Fin 5 → ℕ) (c : Dev nD) : sProp 𝕄 :=
  iprop(cellInv ER (xrd m ρ) (K (c, 0)) (barCell c) ∗ cellInv ER (xrd m ρ) (K (c, 1)) (sndCell0 c) ∗ cellInv ER (xrd m ρ) (K (c, 2)) (sndCell1 c)
    ∗ cellInv ER (xrd m ρ) (K (c, 3)) (rcvCell0 c) ∗ cellInv ER (xrd m ρ) (K (c, 4)) (rcvCell1 c)
    ∗ cellInv ER (xrd m ρ) (K (peer c, 0)) (barCell (peer c))
    ∗ cellInv ER (xrd m ρ) (K (peer c, 3)) (rcvCell0 (peer c)) ∗ cellInv ER (xrd m ρ) (K (peer c, 4)) (rcvCell1 (peer c)))

instance invs_persistent (K : Dev nD × Fin 5 → ℕ) (c : Dev nD) : BI.Persistent (invs m ρ K c) := by unfold invs; infer_instance

/-- The exchange's ghost state device c starts from: the invariants; its positions at round 0 of its five cells; that
    round 0 is reached of the cells it pays; the five duty tokens it pays with. -/
def ghost (K : Dev nD × Fin 5 → ℕ) (c : Dev nD) : sProp 𝕄 :=
  iprop(invs m ρ K c
    ∗ atPos ER (barCell c) 0 ∅ 0 ∗ atPos ER (sndCell0 c) 0 ∅ 0 ∗ atPos ER (sndCell1 c) 0 ∅ 0 ∗ atPos ER (rcvCell0 c) 0 ∅ 0 ∗ atPos ER (rcvCell1 c) 0 ∅ 0
    ∗ reached ER (barCell (peer c)) 0 ∗ reached ER (rcvCell0 (peer c)) 0 ∗ reached ER (rcvCell1 (peer c)) 0 ∗ reached ER (sndCell0 c) 0 ∗ reached ER (sndCell1 c) 0
    ∗ dutyTok ER (barCell (peer c)) 0 () ∗ dutyTok ER (rcvCell0 (peer c)) 0 () ∗ dutyTok ER (rcvCell1 (peer c)) 0 ()
    ∗ dutyTok ER (sndCell0 c) 0 () ∗ dutyTok ER (sndCell1 c) 0 ())

/-- What device c's body starts from: that at some names, the credit of what is owed its barrier cell and its two
    receive cells, and the level facts. -/
def start (c : Dev nD) : sProp 𝕄 :=
  iprop((∃ K, ghost m ρ K c) ∗ cred (tallyAt (barCell c) () 1) ∗ cred (tallyAt (rcvCell0 c) () N) ∗ cred (tallyAt (rcvCell1 c) () N) ∗ levAts L lv)

def Φ₀ (c : Dev nD) : sProp 𝕄 := iprop(start m ρ c ∗ ∃ f, (((c : Thread nD τ).loc cc0_scratch0) ↦{fullShare} f))
/-- After the point: the landing buffer holding the partner's block, the four own cells at zero, closed (the barrier
    cell is the runtime's: nothing to hand back). -/
def Φ₁ (c : Dev nD) : sProp 𝕄 :=
  iprop((((c : Thread nD τ).loc cc0_scratch0) ↦{fullShare} landed m ρ c)
    ∗ semVal (sndCell0 c) 0 ∗ semVal (sndCell1 c) 0 ∗ semVal (rcvCell0 c) 0 ∗ semVal (rcvCell1 c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

abbrev 𝒱₀ : Variants := Variants.none

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

end Cert.KernelIdealRun

end
-- ==== Proof.KernelIdealGeo.lean ====
/-
The geometry of the two halves of a 256x256 buffer: rows 0..127 and rows 128..255 partition the buffer's
elements; a half written from the matching half of another buffer carries that buffer's values there; a
load of a half reads inside that half; and the two half-stores of the sums of the halves make the whole
pointwise sum.
-/
import proofs.«900503_g7700000000000504_dist_ar_v7x_xyz2x2x2_y_m256_n256_f32_1_alg».proof.Proof.KernelIdealBase
import Idealize.ShloMosaic.Lib.Pipeline.Value
import Idealize.ShloMosaic.Lib.Exec.Geometry

noncomputable section

namespace Cert.KernelIdealRun

open Cert.KernelIdeal Cert.KernelIdeal.Gen Idealize.ShloMosaic

variable {F : FTy → Type} [FloatOps F]

/-! ## The halves as sets of elements

A half of a whole buffer holds exactly the elements of its row rectangle, and an element lies in the
first rectangle when its row is below 128, in the second when its row is 128 or more: so each half is
the complement of the other. -/

theorem rS0_set : (rS0).view.set = rc0.set := View.set_slice_whole cc0_scratch0 rc0
theorem rS1_set' : (rS1).view.set = rc1.set := View.set_slice_whole cc0_scratch0 rc1
theorem xS0_set : (xS0).view.set = rc0.set := View.set_slice_whole cc0_stg0_0 rc0
theorem xS1_set' : (xS1).view.set = rc1.set := View.set_slice_whole cc0_stg0_0 rc1

/-- Rows 0..127: the row coordinate is below 128 (the column coordinate is any of the 256). -/
theorem mem_rc0 {i : S256x256.Idx} : i ∈ rc0.set ↔ (i 0 : Nat) < 128 := by
  rw [Rect.mem_set_unit, Fin.forall_fin_two]
  have h1 : (i 1 : Nat) < 256 := (i 1).isLt
  simp only [Matrix.cons_val_zero, Matrix.cons_val_one]
  omega

/-- Rows 128..255: the row coordinate is at least 128 (it is below 256 in any case). -/
theorem mem_rc1 {i : S256x256.Idx} : i ∈ rc1.set ↔ 128 ≤ (i 0 : Nat) := by
  rw [Rect.mem_set_unit, Fin.forall_fin_two]
  have h0 : (i 0 : Nat) < 256 := (i 0).isLt
  have h1 : (i 1 : Nat) < 256 := (i 1).isLt
  simp only [Matrix.cons_val_zero, Matrix.cons_val_one]
  omega

/-- The second row rectangle is the complement of the first: a row is 128 or more exactly when it is
    not below 128. -/
theorem rc1_set : rc1.set = Finset.univ \ rc0.set := by
  ext i
  rw [Finset.mem_sdiff, mem_rc1, mem_rc0]
  simp only [Finset.mem_univ, true_and, Nat.not_lt]

theorem rS1_set : (rS1).view.set = Finset.univ \ (rS0).view.set := by
  rw [rS1_set', rS0_set]; exact rc1_set

theorem xS1_set : (xS1).view.set = Finset.univ \ (xS0).view.set := by
  rw [xS1_set', xS0_set]; exact rc1_set

/-! ## Writing a whole vector through a rectangle of a whole buffer

At the element under the rectangle's index `x` the buffer takes the vector's value at `x`; an element
outside the rectangle keeps what it held. -/

theorem write_access_emb (b : Ref sig .tc) (r : Rect b.ty.shape) (f : b.ty.Contents (Elt F))
    (w : r.shape.Idx → Elt F b.ty.elt) (x : r.shape.Idx) :
    ((Memref.whole b).access r : View sig .tc _ _ _).write (Elt F) f w Finset.univ (r.emb x) = w x :=
  View.write_emb_of_mem (v := ((Memref.whole b).access r : View sig .tc _ _ _)) (Val := Elt F) f w
    (M := Finset.univ) (x := x) (Finset.mem_univ _)

theorem write_access_of_not_mem (b : Ref sig .tc) (r : Rect b.ty.shape) (f : b.ty.Contents (Elt F))
    (w : r.shape.Idx → Elt F b.ty.elt) {i : b.ty.shape.Idx} (hi : i ∉ r.set) :
    ((Memref.whole b).access r : View sig .tc _ _ _).write (Elt F) f w Finset.univ i = f i := by
  refine View.write_of_not_mem (v := ((Memref.whole b).access r : View sig .tc _ _ _)) f w Finset.univ ?_
  rw [View.setOn_univ, View.set_slice_whole]; exact hi

/-! ## A landed half carries the source's values

The half of the landing buffer and the half of the input block sit at the same rows of buffers of one
shape, so the element under an index of the one half is the element under the same index of the other:
what is read off the source there is what is written into the landing buffer there. -/

theorem land0 (fd fs : S256x256.Idx → Elt F .f32) :
    ∀ i ∈ (rS0).view.set, (rS0).view.write (Elt F) fd ((xS0).view.read (Elt F) fs) Finset.univ i = fs i := by
  intro i hi
  obtain ⟨x, -, rfl⟩ := Finset.mem_map.mp hi
  exact View.write_emb_of_mem (v := (rS0).view) (Val := Elt F) fd _ (Finset.mem_univ x)

theorem land1 (fd fs : S256x256.Idx → Elt F .f32) :
    ∀ i ∈ (rS1).view.set, (rS1).view.write (Elt F) fd ((xS1).view.read (Elt F) fs) Finset.univ i = fs i := by
  intro i hi
  obtain ⟨x, -, rfl⟩ := Finset.mem_map.mp hi
  exact View.write_emb_of_mem (v := (rS1).view) (Val := Elt F) fd _ (Finset.mem_univ x)

/-! ## A load of a half reads inside that half

The coordinates a load of rows 0..127 (128..255) of the landing buffer reads are those of the row
rectangle itself, which on each of the two axes lies within its own span. -/

theorem load_sub0 : (rM).view.setOn rc0.toLoadRect.set ⊆ (rS0).view.set :=
  Memref.setOn_subset_slice_of_within rM rc0 (fun _ => rfl) rc0.toLoadRect (by decide)

theorem load_sub1 : (rM).view.setOn rc1.toLoadRect.set ⊆ (rS1).view.set :=
  Memref.setOn_subset_slice_of_within rM rc1 (fun _ => rfl) rc1.toLoadRect (by decide)

/-! ## The two stores make the sum

Each store writes, on its half of the result block, the sum of the same half of the two operands (the
shape cast between equal shapes is the identity). An element of the result whose row is 128 or more was
written by the second store, with the sum at its own place; one whose row is below 128 was left alone by
the second store and written by the first, again with the sum at its own place. -/

theorem out_eq (g X Y : S256x256.Idx → Elt F .f32) :
    ((oM.access rc1 : View sig .tc _ _ _).write (Elt F)
      ((oM.access rc0 : View sig .tc _ _ _).write (Elt F) g
        (k0_pay2 ((xM).view.readAt (Elt F) rc0.toLoadRect X) ((rM).view.readAt (Elt F) rc0.toLoadRect Y)) Finset.univ)
      (k0_pay1 ((xM).view.readAt (Elt F) rc1.toLoadRect X) ((rM).view.readAt (Elt F) rc1.toLoadRect Y)) Finset.univ)
    = addf X Y := by
  funext i
  by_cases hi : i ∈ rc1.set
  · -- row 128 or more: the second store's element
    obtain ⟨x, rfl⟩ := rc1.exists_idx_of_mem hi
    refine (write_access_emb cc0_stg1_0 rc1 _ _ x).trans ?_
    unfold k0_pay1
    rw [shapeCast_self]
    rfl
  · -- row below 128: untouched by the second store, the first store's element
    have hi0 : i ∈ rc0.set := by
      rw [rc1_set, Finset.mem_sdiff] at hi
      by_contra h0; exact hi ⟨Finset.mem_univ _, h0⟩
    refine (write_access_of_not_mem cc0_stg1_0 rc1 _ _ hi).trans ?_
    obtain ⟨x, rfl⟩ := rc0.exists_idx_of_mem hi0
    refine (write_access_emb cc0_stg1_0 rc0 _ _ x).trans ?_
    unfold k0_pay2
    rw [shapeCast_self]
    rfl

end Cert.KernelIdealRun

end
-- ==== Proof.KernelIdealBody.lean ====
/-
One device's run of the kernel body, from the exchange's ghost state to the block sum in the result buffer.

The device signals its partner's barrier cell — handing over both halves of its own landing buffer —,
waits on its own barrier cell and so receives the partner's landing buffer, starts the two copies of
the halves of its input block into it (lending each copy a share of that half of the block and keeping
the other share of the whole block to read from), and then, half by half, waits for the partner's copy
to land, adds what landed to its own half and stores the sum. Last it waits for its own two copies to
have been read out, which returns the lent shares; the four transfer cells are then closed.
-/
import proofs.«900503_g7700000000000504_dist_ar_v7x_xyz2x2x2_y_m256_n256_f32_1_alg».proof.Proof.KernelIdealData
import proofs.«900503_g7700000000000504_dist_ar_v7x_xyz2x2x2_y_m256_n256_f32_1_alg».proof.Proof.KernelIdealGeo

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body -/

section Body

variable (K : Dev nD × Fin 5 → ℕ)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m ρ K c ∗ cred (tallyAt (barCell c) () 1) ∗ cred (tallyAt (rcvCell0 c) () N) ∗ cred (tallyAt (rcvCell1 c) () N) ∗ levAts L lv
      ∗ ∃ f, (((c : Thread nD τ).loc cc0_scratch0) ↦{fullShare} f))
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ m ρ c ∗ (dats m ρ 0 c).owesAt () t₀.succ ∗ stg c cc0_stg0_0 (xstg m ρ c) ∗ stg c cc0_stg1_0 (outAt m ρ c))

omit [FloatOps F] in
/-- A whole buffer of the landing buffer's shape is its two halves. -/
theorem scr_split (c : Dev nD) (f : Buf (Elt F) ((c : Thread nD τ).loc cc0_scratch0)) :
    (((c : Thread nD τ).loc cc0_scratch0) ↦{fullShare} f : sProp 𝕄)
      ⊣⊢ iprop(((rS0 : Memref sig .tc .vmem S128x256 .f32).view.loc (c : Thread nD τ) ↦[(rS0 : Memref sig .tc .vmem S128x256 .f32).view.set]{fullShare} f)
          ∗ ((rS1 : Memref sig .tc .vmem S128x256 .f32).view.loc (c : Thread nD τ) ↦[(rS1 : Memref sig .tc .vmem S128x256 .f32).view.set]{fullShare} f)) := by
  rw [rS1_set]
  exact pointsTo_split_subset (Finset.subset_univ _)

omit [FloatOps F] in
/-- The input block: one share of the whole kept to read from, the other share cut into the two halves the copies borrow. -/
theorem x_split (c : Dev nD) (f : Buf (Elt F) ((c : Thread nD τ).loc cc0_stg0_0)) :
    (((c : Thread nD τ).loc cc0_stg0_0) ↦{fullShare} f : sProp 𝕄)
      ⊣⊢ iprop(((xM : Memref sig .tc .vmem S256x256 .f32).view.loc (c : Thread nD τ) ↦[(xM : Memref sig .tc .vmem S256x256 .f32).view.set]{fullShare.left} f)
          ∗ ((xS0 : Memref sig .tc .vmem S128x256 .f32).view.loc (c : Thread nD τ) ↦[(xS0 : Memref sig .tc .vmem S128x256 .f32).view.set]{fullShare.right} f)
          ∗ ((xS1 : Memref sig .tc .vmem S128x256 .f32).view.loc (c : Thread nD τ) ↦[(xS1 : Memref sig .tc .vmem S128x256 .f32).view.set]{fullShare.right} f)) := by
  rw [xS1_set, show (xM : Memref sig .tc .vmem S256x256 .f32).view.set = Finset.univ from View.set_whole _]
  have h1 := pointsTo_share (ℓ := (c : Thread nD τ).loc cc0_stg0_0) (I := Finset.univ) (f := f) (Ix := Unit) (Val := Elt F) (Name := ℕ) (U := UU) (Lvl := ℕ)
    (PosShare.mem_left_op_right fullShare)
  have h2 := pointsTo_split_subset (ℓ := (c : Thread nD τ).loc cc0_stg0_0) (q := fullShare.right) (f := f) (Ix := Unit) (Val := Elt F) (Name := ℕ) (U := UU) (Lvl := ℕ)
    (Finset.subset_univ (xS0 : Memref sig .tc .vmem S128x256 .f32).view.set)
  exact ⟨h1.1.trans (sep_mono_right h2.1), (sep_mono_right h2.2).trans h1.2⟩

/-- The copy of half 0, addressed to the partner `n = peer c`: it borrows the lent share of that half of the input block and
    the partner's half of the landing buffer, pays the device's send cell and the partner's receive cell, and takes the
    half's credit off what the device owes. -/
theorem wp_send_half0 (c n : Dev nD) (hn : n = peer c)
    {hsc : (rS0 : Memref sig (Dev.tc n : Thread nD τ).2.kind .vmem S128x256 .f32).view.ref.isScScratch = false}
    {hsrc : (xS0 : Memref sig .tc .vmem S128x256 .f32).view.WordExact} {hdst : (rS0 : Memref sig .tc .vmem S128x256 .f32).view.WordExact}
    {hsem : DmaTarget.Typed .vmem (.dma rcv0) (.remote (Dev.tc n : Thread nD τ) (rS0 : Memref sig .tc .vmem S128x256 .f32) (.dma snd0) hsc)}
    {α : Type} {Q : α → sProp 𝕄} {k : PUnit → Prog (TpuEff nD τ sig (Elt F) Λ₀ .tc) α}
    (fn : Buf (Elt F) ((rS0 : Memref sig .tc .vmem S128x256 .f32).view.loc (peer c : Thread nD τ))) (O : CellTallies nD τ sig Unit) (W : Waits sig Unit) :
    iprop(cellInv ER (xrd m ρ) (K (c, 1)) (sndCell0 c) ∗ cellInv ER (xrd m ρ) (K (peer c, 3)) (rcvCell0 (peer c))
        ∗ ((xS0 : Memref sig .tc .vmem S128x256 .f32).view.loc (c : Thread nD τ) ↦[(xS0 : Memref sig .tc .vmem S128x256 .f32).view.set]{fullShare.right} xstg m ρ c)
        ∗ ((rS0 : Memref sig .tc .vmem S128x256 .f32).view.loc (peer c : Thread nD τ) ↦[(rS0 : Memref sig .tc .vmem S128x256 .f32).view.set]{fullShare} fn)
        ∗ owes (c : Thread nD τ) (O + tallyAt (rcvCell0 (peer c)) () N) W
        ∗ dutyTok ER (sndCell0 c) 0 () ∗ reached ER (sndCell0 c) 0
        ∗ dutyTok ER (rcvCell0 (peer c)) 0 () ∗ reached ER (rcvCell0 (peer c)) 0)
      ⊢ iprop(((cred (tallyAt (sndCell0 c) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma xS0 (.remote (Dev.tc n : Thread nD τ) rS0 (.dma snd0) hsc) (.dma rcv0) hsrc hdst hsem) k) Q) := by
  subst hn
  exact Rounds.wp_send_pointsTo 𝒱₀ ER (xrd m ρ) (c : Thread nD τ) none (κ₁ := K (c, 1)) (κ₂ := K (peer c, 3))
    (r₁ := 0) (r₂ := 0) (d₁ := ()) (d₂ := ()) (fd := fn)
    (by rw [duties_snd0]; exact Finset.mem_singleton_self _) (by rw [duties_rcv0]; exact Finset.mem_singleton_self _)
    () () N rfl (amount_snd0 m ρ c ()) (amount_rcv0 m ρ (peer c) ()) O rfl (W := W)
    (by rw [payload_snd0])
    (by
      rw [payload_rcv0]
      refine Entails.of_eq (pointsTo_congr fun i hi => ?_)
      unfold landed; rw [peer_peer]
      exact land0 _ _ i hi)

/-- The copy of half 1, addressed to the partner `n = peer c`: it borrows the lent share of that half of the input block and
    the partner's half of the landing buffer, pays the device's send cell and the partner's receive cell, and takes the
    half's credit off what the device owes. -/
theorem wp_send_half1 (c n : Dev nD) (hn : n = peer c)
    {hsc : (rS1 : Memref sig (Dev.tc n : Thread nD τ).2.kind .vmem S128x256 .f32).view.ref.isScScratch = false}
    {hsrc : (xS1 : Memref sig .tc .vmem S128x256 .f32).view.WordExact} {hdst : (rS1 : Memref sig .tc .vmem S128x256 .f32).view.WordExact}
    {hsem : DmaTarget.Typed .vmem (.dma rcv1) (.remote (Dev.tc n : Thread nD τ) (rS1 : Memref sig .tc .vmem S128x256 .f32) (.dma snd1) hsc)}
    {α : Type} {Q : α → sProp 𝕄} {k : PUnit → Prog (TpuEff nD τ sig (Elt F) Λ₀ .tc) α}
    (fn : Buf (Elt F) ((rS1 : Memref sig .tc .vmem S128x256 .f32).view.loc (peer c : Thread nD τ))) (O : CellTallies nD τ sig Unit) (W : Waits sig Unit) :
    iprop(cellInv ER (xrd m ρ) (K (c, 2)) (sndCell1 c) ∗ cellInv ER (xrd m ρ) (K (peer c, 4)) (rcvCell1 (peer c))
        ∗ ((xS1 : Memref sig .tc .vmem S128x256 .f32).view.loc (c : Thread nD τ) ↦[(xS1 : Memref sig .tc .vmem S128x256 .f32).view.set]{fullShare.right} xstg m ρ c)
        ∗ ((rS1 : Memref sig .tc .vmem S128x256 .f32).view.loc (peer c : Thread nD τ) ↦[(rS1 : Memref sig .tc .vmem S128x256 .f32).view.set]{fullShare} fn)
        ∗ owes (c : Thread nD τ) (O + tallyAt (rcvCell1 (peer c)) () N) W
        ∗ dutyTok ER (sndCell1 c) 0 () ∗ reached ER (sndCell1 c) 0
        ∗ dutyTok ER (rcvCell1 (peer c)) 0 () ∗ reached ER (rcvCell1 (peer c)) 0)
      ⊢ iprop(((cred (tallyAt (sndCell1 c) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma xS1 (.remote (Dev.tc n : Thread nD τ) rS1 (.dma snd1) hsc) (.dma rcv1) hsrc hdst hsem) k) Q) := by
  subst hn
  exact Rounds.wp_send_pointsTo 𝒱₀ ER (xrd m ρ) (c : Thread nD τ) none (κ₁ := K (c, 2)) (κ₂ := K (peer c, 4))
    (r₁ := 0) (r₂ := 0) (d₁ := ()) (d₂ := ()) (fd := fn)
    (by rw [duties_snd1]; exact Finset.mem_singleton_self _) (by rw [duties_rcv1]; exact Finset.mem_singleton_self _)
    () () N rfl (amount_snd1 m ρ c ()) (amount_rcv1 m ρ (peer c) ()) O rfl (W := W)
    (by rw [payload_snd1])
    (by
      rw [payload_rcv1]
      refine Entails.of_eq (pointsTo_congr fun i hi => ?_)
      unfold landed; rw [peer_peer]
      exact land1 _ _ i hi)

omit [FloatOps F] in
/-- The result block's staging buffer, spelt through its memref. -/
theorem out_view (c : Dev nD) (f : Buf (Elt F) ((c : Thread nD τ).loc cc0_stg1_0)) :
    (((c : Thread nD τ).loc cc0_stg1_0) ↦{fullShare} f : sProp 𝕄)
      = ((oM : Memref sig .tc .vmem S256x256 .f32).view.loc (c : Thread nD τ) ↦[(oM : Memref sig .tc .vmem S256x256 .f32).view.set]{fullShare} f) := by
  rw [show (oM : Memref sig .tc .vmem S256x256 .f32).view.set = Finset.univ from View.set_whole _]

attribute [local sl_rounds] duties_bar duties_snd0 duties_snd1 duties_rcv0 duties_rcv1 amount_bar amount_snd0 amount_snd1 amount_rcv0 amount_rcv1
  expect_bar expect_snd0 expect_snd1 expect_rcv0 expect_rcv1 payload_bar payload_snd0 payload_snd1 payload_rcv0 payload_rcv1
attribute [local sl_canon] dev1_eq dev2_eq dev3_eq

set_option maxHeartbeats 1600000 in
/-- The body, run from `bodyPre` to `bodyPost`. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  simp only [cc0_body_eq_skeleton]; unfold cc0_body_skel
  simp only [k0_part1_eq_skeleton, k0_part2_eq_skeleton]; unfold k0_part1_skel k0_part2_skel
  unfold bodyPre ghost invs
  iintro ⟨⟨⟨⟨⟨#HIbar, #HIs0, #HIs1, #HIr0, #HIr1, #HIbarP, #HIr0P, #HIr1P⟩, HatB, HatS0, HatS1, HatR0, HatR1, #HrBP, #HrR0P, #HrR1P, #HrS0, #HrS1,
      HtBP, HtR0P, HtR1P, HtS0, HtS1⟩, HcB, HcR0, HcR1, #Hlev, ⟨%f0, Hscr⟩⟩,
    Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  simp only [semSignalWord, semWaitWord, Prog.lift, Prog.bind_op, Prog.bind_ret, Prog.pure_eq_ret, wp_deviceId]
  simp only [dev1_eq c, dev2_eq c, dev3_eq c]
  -- the landing buffer, cut into its two halves
  ihave Hsp := (scr_split c f0).1 $$ Hscr
  icases Hsp with ⟨Hs0, Hs1⟩
  -- the signal to the partner's barrier cell, with both halves
  iapply (Rounds.wp_signal 𝒱₀ ER (xrd m ρ) (c : Thread nD τ) none (dst := (peer c : Thread nD τ)) (κ := K (peer c, 0))
      (d := ()) (by rw [duties_bar]; exact Finset.mem_singleton_self _) ((amount_bar m ρ (peer c) ()).trans (by decide)) () (O₁ c) rfl)
    $$ [HO HtBP Hs0 Hs1]
  · isplitr; · iexact HIbarP
    isplitl [HO]; · iexact HO
    isplitl [HtBP]; · iexact HtBP
    isplitl [Hs0 Hs1]
    · rw [payload_bar]; unfold barPay; rw [peer_peer]
      isplitl [Hs0]; · iexists f0; iexact Hs0
      iexists f0; iexact Hs1
    · iexact HrBP
  iintro HO
  have hmw := mayWait_bar (F := F) c
  sl_exec
  unfold barPay
  icases HatB_pay1 with ⟨⟨%fn0, HsP0⟩, ⟨%fn1, HsP1⟩⟩
  -- the input block: a share kept, the other cut into the halves the copies borrow
  ihave Hxs := (x_split c (xstg m ρ c)).1 $$ Hx
  icases Hxs with ⟨Hx, Hx0, Hx1⟩
  -- the copy of rows 0..127
  unfold O₁
  iapply (wp_send_half0 m ρ K c _ (dev2_eq c) fn0 (tallyAt (rcvCell1 (peer c)) () N) _) $$ [Hx0 HsP0 HO HtS0 HtR0P]
  · isplitr; · iexact HIs0
    isplitr; · iexact HIr0P
    isplitl [Hx0]; · iexact Hx0
    isplitl [HsP0]; · iexact HsP0
    isplitl [HO]; · iexact HO
    isplitl [HtS0]; · iexact HtS0
    isplitr; · iexact HrS0
    isplitl [HtR0P]; · iexact HtR0P
    iexact HrR0P
  iintro ⟨HcS0, HO⟩
  -- the copy of rows 128..255
  iapply (wp_send_half1 m ρ K c _ (dev3_eq c) fn1 0 _) $$ [Hx1 HsP1 HO HtS1 HtR1P]
  · isplitr; · iexact HIs1
    isplitr; · iexact HIr1P
    isplitl [Hx1]; · iexact Hx1
    isplitl [HsP1]; · iexact HsP1
    isplitl [HO]; · rw [zero_add]; iexact HO
    isplitl [HtS1]; · iexact HtS1
    isplitr; · iexact HrS1
    isplitl [HtR1P]; · iexact HtR1P
    iexact HrR1P
  iintro ⟨HcS1, HO⟩
  ihave Hout := (Entails.of_eq (out_view c g1)) $$ Hout
  -- the partner's halves land, each is added to the device's own half and stored; then the device's own copies are waited for
  sl_exec
  -- the four transfer cells close: their counters at zero are the core's again
  imod (Rounds.cell_close ER (xrd m ρ) (Set.mem_univ (K (c, 1))) (fun h => h) (R := 1) (duties_later m ρ (sndCell0 c))) $$ [HatS0] with HzS0
  · isplitr; · iexact HIs0
    iexact HatS0
  imod (Rounds.cell_close ER (xrd m ρ) (Set.mem_univ (K (c, 2))) (fun h => h) (R := 1) (duties_later m ρ (sndCell1 c))) $$ [HatS1] with HzS1
  · isplitr; · iexact HIs1
    iexact HatS1
  imod (Rounds.cell_close ER (xrd m ρ) (Set.mem_univ (K (c, 3))) (fun h => h) (R := 1) (duties_later m ρ (rcvCell0 c))) $$ [HatR0] with HzR0
  · isplitr; · iexact HIr0
    iexact HatR0
  imod (Rounds.cell_close ER (xrd m ρ) (Set.mem_univ (K (c, 4))) (fun h => h) (R := 1) (duties_later m ρ (rcvCell1 c))) $$ [HatR1] with HzR1
  · isplitr; · iexact HIr1
    iexact HatR1
  -- the halves rejoined: the landing buffer whole, the input block whole at the full share
  ihave Hscr := (scr_split c (landed m ρ c)).2 $$ [HatR0_pay1 HatR1_pay1]
  · isplitl [HatR0_pay1] <;> iassumption
  ihave Hx := (x_split c (xstg m ρ c)).2 $$ [Hx HatS0_pay1 HatS1_pay1]
  · isplitl [Hx]; · iexact Hx
    isplitl [HatS0_pay1] <;> iassumption
  -- the result block: the two stored halves are the sum
  have hout : ∀ g : Buf (Elt F) ((c : Thread nD τ).loc cc0_stg1_0),
      (oM : Memref sig .tc .vmem S256x256 .f32).view.writes (Elt F) g
        [⟨rc1, k0_pay1 ((xM : Memref sig .tc .vmem S256x256 .f32).view.readAt (Elt F) rc1.toLoadRect (xstg m ρ c))
            ((rM : Memref sig .tc .vmem S256x256 .f32).view.readAt (Elt F) rc1.toLoadRect (landed m ρ c))⟩,
         ⟨rc0, k0_pay2 ((xM : Memref sig .tc .vmem S256x256 .f32).view.readAt (Elt F) rc0.toLoadRect (xstg m ρ c))
            ((rM : Memref sig .tc .vmem S256x256 .f32).view.readAt (Elt F) rc0.toLoadRect (landed m ρ c))⟩]
      = outAt m ρ c := fun g => out_eq g (xstg m ρ c) (landed m ρ c)
  ihave Hout := (Entails.of_eq ((congrArg (fun f => ((oM : Memref sig .tc .vmem S256x256 .f32).view.loc (c : Thread nD τ) ↦[(oM : Memref sig .tc .vmem S256x256 .f32).view.set]{fullShare} f : sProp 𝕄)) (hout g1)).trans
    (out_view c (outAt m ρ c)).symm)) $$ Hout
  rw [wp_ret]
  imodintro
  iapply Hk
  unfold bodyPost Φ₁ Dat.owesAt Pipeline.owesWithin
  rw [show (dats m ρ 0 c).owed t₀.succ = 0 from rfl]
  isplitl [Hscr HzS0 HzS1 HzR0 HzR1]
  · isplitl [Hscr]; · iexact Hscr
    isplitl [HzS0]; · iexact HzS0
    isplitl [HzS1]; · iexact HzS1
    isplitl [HzR0]; · iexact HzR0
    iexact HzR1
  isplitl [HO]
  · iexists (insert (SemLoc.dma snd1, ()) (insert (SemLoc.dma snd0, ()) (insert (SemLoc.dma rcv1, ()) (insert (SemLoc.dma rcv0, ())
      (insert (SemLoc.reg barS, ()) W)))))
    isplitr; · ipureintro; exact fun _ _ => Or.inl trivial
    iexact HO
  isplitl [Hx]
  · iexists _; isplitr; · (ipureintro; rfl)
    iexact Hx
  iexists _; isplitr; · (ipureintro; rfl)
  iexact Hout

set_option maxRecDepth 4000 in
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
/-- The library's body obligation on core c. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m ρ c)
  unfold bodyPre' Φ₀ start
  iintro ⟨⟨⟨⟨%K, Hg⟩, Hrest⟩, Hscr⟩, Ho, Hx, Hout⟩
  iapply (sound_body m ρ K c fun _ => bodyPost m ρ c)
  unfold bodyPre
  isplitr []
  · isplitl [Hg Hrest Hscr]
    · isplitl [Hg]; · iexact Hg
      icases Hrest with ⟨H1, H2, H3, H4⟩
      isplitl [H1]; · iexact H1
      isplitl [H2]; · iexact H2
      isplitl [H3]; · iexact H3
      isplitl [H4]; · iexact H4
      iexact Hscr
    isplitl [Ho]; · iexact Ho
    isplitl [Hx] <;> iassumption
  · iintro H; iexact H

end Body

end Cert.KernelIdealRun

end
-- ==== Proof.KernelIdealLaunch.lean ====
/-
The launch of the exchange on all eight devices: the ghost state of the five cells of every device is made
at once — the cells' invariants allocated from the semaphores at zero, the positions kept by each cell's
owner, the duty tokens dealt to the devices that pay them (a device's barrier token and its two receive
tokens go to its partner, its two send tokens stay) — and the credit of what the partner owes a device's
barrier cell and receive cells is read off the launch.
-/
import proofs.«900503_g7700000000000504_dist_ar_v7x_xyz2x2x2_y_m256_n256_f32_1_alg».proof.Proof.KernelIdealData

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and tokens of the exchange -/

theorem ownSemFacts : Pipeline.OwnSemFacts cfg0.spec osem := by decide

theorem share_eq (c : Dev nD) (w : Fin cfg0.W) : (dats m ρ 0 c).share w = fullShare := by unfold Dat.share; split <;> rfl

theorem kcell_injective : Function.Injective (kcell : Dev nD × Fin 5 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
def xCells : Finset (GSem nD τ sig) := Finset.univ.map ⟨kcell, kcell_injective⟩

/-- Every cell's one duty token, as minted: (cell, round 0, the duty). -/
abbrev tokOf (ck : Dev nD × Fin 5) : GSem nD τ sig × ℕ × Unit := (kcell ck, 0, ())
theorem tokOf_injective : Function.Injective (tokOf : Dev nD × Fin 5 → GSem nD τ sig × ℕ × Unit) :=
  fun a b h => kcell_injective (congrArg Prod.fst h)
def xToks : Finset (GSem nD τ sig × ℕ × Unit) := Finset.univ.map ⟨tokOf, tokOf_injective⟩

def u₀ : UU :=
  (initOf (Pipeline.cells cfgs cellOf_inj) (Pipeline.launchToks cfgs cellOf_inj), initOf xCells xToks)

/-- The duty tokens of device c's own cells. -/
def toks (c : Dev nD) : sProp 𝕄 :=
  iprop(dutyTok ER (barCell c) 0 () ∗ dutyTok ER (sndCell0 c) 0 () ∗ dutyTok ER (sndCell1 c) 0 () ∗ dutyTok ER (rcvCell0 c) 0 () ∗ dutyTok ER (rcvCell1 c) 0 ())

/-- What the launch element deals device c. -/
def G (c : Dev nD) : sProp 𝕄 :=
  iprop((bigSep Finset.univ fun k : Fin 5 => roundState ER (xrd m ρ) (kcell (c, k)) 0)
    ∗ (bigSep Finset.univ fun k : Fin 5 => iprop(atPos ER (kcell (c, k)) 0 ∅ 0 ∗ reached ER (kcell (c, k)) 0)) ∗ toks c)

/-- What the global step makes of it. -/
def G' (c : Dev nD) : sProp 𝕄 := iprop(∃ K, ghost m ρ K c)

omit [FloatOps F] in
theorem bigSep_fin5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

omit [FloatOps F] in
theorem fund_x : BI.own (ER (initOf xCells xToks)) ⊢ (|==> bigSep Finset.univ (G m ρ) : sProp 𝕄) := by
  have hX (Φ : GSem nD τ sig → sProp 𝕄) : bigSep xCells Φ = bigSep Finset.univ fun c : Dev nD => bigSep Finset.univ fun k : Fin 5 => Φ (kcell (c, k)) := by
    unfold xCells; rw [bigSep_map, bigSep_univ_prod]; rfl
  have hT : bigSep xToks (fun x => (dutyTok ER x.1 x.2.1 x.2.2 : sProp 𝕄)) = bigSep Finset.univ fun c : Dev nD => toks c := by
    unfold xToks; rw [bigSep_map, bigSep_univ_prod]
    exact bigSep_congr fun c _ => by unfold toks; rw [bigSep_fin5]; rfl
  iintro HX
  imod (Rounds.fund ER (xrd m ρ) xCells xToks) $$ HX with ⟨Hst, Hr, Hat, Htok⟩
  imodintro
  ihave Hst' := (Entails.of_eq (hX fun g => roundState ER (xrd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The send and receive semaphores are the kernel's own four; -/
theorem ownSems0_eq (c : Dev nD) : (Pipeline.ownSems0 (Ix := Unit) (Name := ℕ) (U := UU) (Lvl := ℕ) (Val := Elt F) (τ := τ) osem c : sProp 𝕄)
    = iprop(semVal (sndCell0 c) 0 ∗ semVal (sndCell1 c) 0 ∗ semVal (rcvCell0 c) 0 ∗ semVal (rcvCell1 c) 0) := by
  rw [Pipeline.ownSems0_eq_of_list c osem [0, 1, 2, 3] (by decide) (by decide)]; rfl
omit [FloatOps F] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 5 => semVal (kcell (c, k)) 0 : sProp 𝕄) := by
  rw [ownSems0_eq, unscopedSems0_eq, bigSep_fin5]
  iintro ⟨⟨HS0, HS1, HV0, HV1⟩, HB⟩
  isplitl [HB]; · iexact HB
  isplitl [HS0]; · iexact HS0
  isplitl [HS1]; · iexact HS1
  isplitl [HV0] <;> iassumption

omit [FloatOps F] in
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (xrd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 5 => semVal (kcell (c, k)) 0) ∗ bigSep Finset.univ fun k : Fin 5 => roundState ER (xrd m ρ) (kcell (c, k)) 0)
      ⊢ (|={Set.univ}=> bigSep Finset.univ fun k => iprop(∃ κ : ℕ, cellInv ER (xrd m ρ) κ (kcell (c, k))) : sProp 𝕄) from by
        rw [← bigSep_sep']
        exact (bigSep_mono fun k _ => (Rounds.body_intro ER (xrd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def records (K : Dev nD × Fin 5 → ℕ) : sProp 𝕄 :=
  iprop((bigSep Finset.univ fun ck : Dev nD × Fin 5 => cellInv ER (xrd m ρ) (K ck) (kcell ck))
    ∗ bigSep Finset.univ fun ck : Dev nD × Fin 5 => reached ER (kcell ck) 0)

instance records_persistent (K : Dev nD × Fin 5 → ℕ) : BI.Persistent (records m ρ K) := by unfold records; infer_instance

omit [FloatOps F] in
theorem inv_at (K : Dev nD × Fin 5 → ℕ) (ck : Dev nD × Fin 5) :
    (bigSep Finset.univ fun ck : Dev nD × Fin 5 => (cellInv ER (xrd m ρ) (K ck) (kcell ck) : sProp 𝕄)) ⊢ cellInv ER (xrd m ρ) (K ck) (kcell ck) :=
  bigSep_elim (Finset.mem_univ ck)
omit [FloatOps F] in
theorem reached_at (ck : Dev nD × Fin 5) :
    (bigSep Finset.univ fun ck : Dev nD × Fin 5 => (reached ER (kcell ck) 0 : sProp 𝕄)) ⊢ reached ER (kcell ck) 0 :=
  bigSep_elim (Finset.mem_univ ck)

/-- What stays with device c: its positions, and the tokens of the duties IT pays. -/
def payToks (c : Dev nD) : sProp 𝕄 :=
  iprop(dutyTok ER (barCell (peer c)) 0 () ∗ dutyTok ER (rcvCell0 (peer c)) 0 () ∗ dutyTok ER (rcvCell1 (peer c)) 0 ()
    ∗ dutyTok ER (sndCell0 c) 0 () ∗ dutyTok ER (sndCell1 c) 0 ())
def linear (c : Dev nD) : sProp 𝕄 :=
  iprop((atPos ER (barCell c) 0 ∅ 0 ∗ atPos ER (sndCell0 c) 0 ∅ 0 ∗ atPos ER (sndCell1 c) 0 ∅ 0 ∗ atPos ER (rcvCell0 c) 0 ∅ 0 ∗ atPos ER (rcvCell1 c) 0 ∅ 0) ∗ payToks c)

omit [FloatOps F] in
theorem ghost_intro (K : Dev nD × Fin 5 → ℕ) (c : Dev nD) : iprop(records m ρ K ∗ linear c) ⊢ G' m ρ c := by
  unfold records linear payToks G' ghost invs
  iintro ⟨⟨#HI, #HR⟩, ⟨HaB, HaS0, HaS1, HaV0, HaV1⟩, HtBP, HtV0P, HtV1P, HtS0, HtS1⟩
  iexists K
  isplitr
  · isplitr; · iapply (inv_at m ρ K (c, 0)); iexact HI
    isplitr; · iapply (inv_at m ρ K (c, 1)); iexact HI
    isplitr; · iapply (inv_at m ρ K (c, 2)); iexact HI
    isplitr; · iapply (inv_at m ρ K (c, 3)); iexact HI
    isplitr; · iapply (inv_at m ρ K (c, 4)); iexact HI
    isplitr; · iapply (inv_at m ρ K (peer c, 0)); iexact HI
    isplitr; · iapply (inv_at m ρ K (peer c, 3)); iexact HI
    iapply (inv_at m ρ K (peer c, 4)); iexact HI
  isplitl [HaB]; · iexact HaB
  isplitl [HaS0]; · iexact HaS0
  isplitl [HaS1]; · iexact HaS1
  isplitl [HaV0]; · iexact HaV0
  isplitl [HaV1]; · iexact HaV1
  isplitr; · iapply (reached_at (F := F) (peer c, 0)); iexact HR
  isplitr; · iapply (reached_at (F := F) (peer c, 3)); iexact HR
  isplitr; · iapply (reached_at (F := F) (peer c, 4)); iexact HR
  isplitr; · iapply (reached_at (F := F) (c, 1)); iexact HR
  isplitr; · iapply (reached_at (F := F) (c, 2)); iexact HR
  isplitl [HtBP]; · iexact HtBP
  isplitl [HtV0P]; · iexact HtV0P
  isplitl [HtV1P]; · iexact HtV1P
  isplitl [HtS0]; · iexact HtS0
  iexact HtS1

omit [FloatOps F] in
/-- The tokens dealt across each pair of partners: a device's barrier token and its two receive tokens go to its
    partner, who pays those duties; its two send tokens stay. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep', bigSep_sep', bigSep_sep',
    bigSep_univ_equiv flip (fun c : Dev nD => (dutyTok ER (barCell c) 0 () : sProp 𝕄)),
    bigSep_univ_equiv flip (fun c : Dev nD => (dutyTok ER (rcvCell0 c) 0 () : sProp 𝕄)),
    bigSep_univ_equiv flip (fun c : Dev nD => (dutyTok ER (rcvCell1 c) 0 () : sProp 𝕄))]
  iintro ⟨H1, H2, H3, H4, H5⟩
  isplitl [H1]; · iexact H1
  isplitl [H4]; · iexact H4
  isplitl [H5]; · iexact H5
  isplitl [H2]; · iexact H2
  iexact H3

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem regroup :
    (bigSep Finset.univ fun c : Dev nD => iprop((bigSep Finset.univ fun k => iprop(∃ κ : ℕ, cellInv ER (xrd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 5 => iprop(∃ κ : ℕ, cellInv ER (xrd m ρ) κ (kcell ck))),
    bigSep_congr (s := Finset.univ) (fun (c : Dev nD) _ => bigSep_sep' Finset.univ (fun k : Fin 5 => (atPos ER (kcell (c, k)) 0 ∅ 0 : sProp 𝕄)) (fun k => reached ER (kcell (c, k)) 0)),
    bigSep_sep', ← bigSep_univ_prod (fun ck : Dev nD × Fin 5 => (reached ER (kcell ck) 0 : sProp 𝕄))]
  iintro ⟨HI, ⟨Hat, #HR⟩, Htok⟩
  ihave HK := (BI.bigSep_exists_pi Finset.univ (fun (ck : Dev nD × Fin 5) (κ : ℕ) => (cellInv ER (xrd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 5 => (atPos ER (kcell (c, k)) 0 ∅ 0 : sProp 𝕄)) payToks).symm).trans
      (bigSep_mono fun c _ => show _ ⊢ linear c from Entails.of_eq (by unfold linear; rw [bigSep_fin5])))
    isplitl [Hat]; · iexact Hat
    iexact Htk

omit [FloatOps F] in
/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

omit [FloatOps F] in
theorem bar_eq_iff {a b : Dev nD} : Iff (barCell a = barCell b) (a = b) :=
  ⟨fun h => Fin.ext (congrArg (fun g : GSem nD τ sig => g.1.1.val) h), fun h => h ▸ rfl⟩
omit [FloatOps F] in
theorem rcv0_eq_iff {a b : Dev nD} : Iff (rcvCell0 a = rcvCell0 b) (a = b) :=
  ⟨fun h => Fin.ext (congrArg (fun g : GSem nD τ sig => g.1.1.val) h), fun h => h ▸ rfl⟩
omit [FloatOps F] in
theorem rcv1_eq_iff {a b : Dev nD} : Iff (rcvCell1 a = rcvCell1 b) (a = b) :=
  ⟨fun h => Fin.ext (congrArg (fun g : GSem nD τ sig => g.1.1.val) h), fun h => h ▸ rfl⟩

theorem peer_eq_iff {d c : Dev nD} : Iff (c = peer d) (d = peer c) :=
  ⟨fun h => by rw [h, peer_peer], fun h => by rw [h, peer_peer]⟩

omit [FloatOps F] in
/-- What device d owes device c's barrier cell: a unit if d is c's partner. -/
theorem owed_bar (d c : Dev nD) : O₀ d (barCell c) () = if d = peer c then 1 else 0 := by
  unfold O₀ O₁
  rw [Pi.add_apply, Finsupp.add_apply, Pi.add_apply, Finsupp.add_apply,
    tallyAt_ne_cell (fun h => rcv1_ne_bar (congrArg Prod.snd h).symm), tallyAt_ne_cell (fun h => rcv0_ne_bar (congrArg Prod.snd h).symm),
    tallyAt_apply, Finsupp.zero_apply, Nat.zero_add, Nat.zero_add]
  by_cases h : d = peer c
  · subst h; rw [peer_peer, if_pos ⟨rfl, rfl⟩, if_pos rfl]
  · rw [if_neg (fun ⟨h1, _⟩ => h (peer_eq_iff.mp (bar_eq_iff.mp h1))), if_neg h]

omit [FloatOps F] in
theorem owed_rcv0 (d c : Dev nD) : O₀ d (rcvCell0 c) () = if d = peer c then N else 0 := by
  unfold O₀ O₁
  rw [Pi.add_apply, Finsupp.add_apply, Pi.add_apply, Finsupp.add_apply,
    tallyAt_ne_cell (fun h => rcv1_ne_rcv0 (congrArg Prod.snd h).symm), tallyAt_apply,
    tallyAt_ne_cell (fun h => rcv0_ne_bar (congrArg Prod.snd h)), Finsupp.zero_apply, Nat.zero_add, Nat.add_zero]
  by_cases h : d = peer c
  · subst h; rw [peer_peer, if_pos ⟨rfl, rfl⟩, if_pos rfl]
  · rw [if_neg (fun ⟨h1, _⟩ => h (peer_eq_iff.mp (rcv0_eq_iff.mp h1))), if_neg h]

omit [FloatOps F] in
theorem owed_rcv1 (d c : Dev nD) : O₀ d (rcvCell1 c) () = if d = peer c then N else 0 := by
  unfold O₀ O₁
  rw [Pi.add_apply, Finsupp.add_apply, Pi.add_apply, Finsupp.add_apply,
    tallyAt_apply, tallyAt_ne_cell (fun h => rcv1_ne_rcv0 (congrArg Prod.snd h)),
    tallyAt_ne_cell (fun h => rcv1_ne_bar (congrArg Prod.snd h)), Finsupp.zero_apply, Nat.add_zero, Nat.add_zero]
  by_cases h : d = peer c
  · subst h; rw [peer_peer, if_pos ⟨rfl, rfl⟩, if_pos rfl]
  · rw [if_neg (fun ⟨h1, _⟩ => h (peer_eq_iff.mp (rcv1_eq_iff.mp h1))), if_neg h]

omit [FloatOps F] in
theorem launch_bar (c : Dev nD) :
    tallyOn (barCell c) (launchCredit (Pipeline.owing O₀) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar d c,
    Finset.sum_ite_eq' Finset.univ (peer c) fun _ => 1, if_pos (Finset.mem_univ _)]

omit [FloatOps F] in
theorem launch_rcv0 (c : Dev nD) :
    tallyOn (rcvCell0 c) (launchCredit (Pipeline.owing O₀) 0 (rcvCell0 c)) = (tallyAt (rcvCell0 c) () N : CellTallies nD τ sig Unit) := by
  unfold tallyAt; refine congrArg _ (Finsupp.ext fun u => ?_); cases u
  rw [Pipeline.launchCredit_owing, Finsupp.single_eq_same, Finset.sum_congr rfl fun d _ => owed_rcv0 d c,
    Finset.sum_ite_eq' Finset.univ (peer c) fun _ => N, if_pos (Finset.mem_univ _)]

omit [FloatOps F] in
theorem launch_rcv1 (c : Dev nD) :
    tallyOn (rcvCell1 c) (launchCredit (Pipeline.owing O₀) 0 (rcvCell1 c)) = (tallyAt (rcvCell1 c) () N : CellTallies nD τ sig Unit) := by
  unfold tallyAt; refine congrArg _ (Finsupp.ext fun u => ?_); cases u
  rw [Pipeline.launchCredit_owing, Finsupp.single_eq_same, Finset.sum_congr rfl fun d _ => owed_rcv1 d c,
    Finset.sum_ite_eq' Finset.univ (peer c) fun _ => N, if_pos (Finset.mem_univ _)]

omit [FloatOps F] in
theorem creds (c : Dev nD) :
    (Pipeline.launchCred O₀ c : sProp 𝕄) ⊢ iprop(cred (tallyAt (barCell c) () 1) ∗ cred (tallyAt (rcvCell0 c) () N) ∗ cred (tallyAt (rcvCell1 c) () N)) := by
  unfold Pipeline.launchCred
  rw [bigSep_univ_at _ (SemLoc.reg barS), launch_bar]
  refine sep_mono_right ?_
  rw [bigSep_erase (i := SemLoc.dma rcv0) (Finset.mem_erase.mpr ⟨rcv0_ne_bar, Finset.mem_univ _⟩), launch_rcv0]
  refine sep_mono_right ?_
  rw [← launch_rcv1]
  exact bigSep_elim (Finset.mem_erase.mpr ⟨rcv1_ne_rcv0, Finset.mem_erase.mpr ⟨rcv1_ne_bar, Finset.mem_univ _⟩⟩)

/-! ### The launch theorem's side conditions -/

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN0, HN1⟩
  imodintro
  unfold start G'
  isplitl
  · isplitl [HG]; · iexact HG
    isplitl [H1]; · iexact H1
    isplitl [HN0]; · iexact HN0
    isplitl [HN1]; · iexact HN1
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f, Hr⟩⟩
  isplitl [Hs]; · iexact Hs
  iexists f; iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ m ρ c from rfl, scopedRest0_eq, ownSems0_eq]
  unfold Φ₁
  iintro ⟨Hr, HzS0, HzS1, HzV0, HzV1⟩
  isplitr; · iempintro
  isplitl [HzS0 HzS1 HzV0 HzV1]
  · isplitl [HzS0]; · iexact HzS0
    isplitl [HzS1]; · iexact HzS1
    isplitl [HzV0] <;> iassumption
  iexists (landed m ρ c); iexact Hr

theorem waits (c : Dev nD) : (levAts L lv : sProp 𝕄) ⊢ Pipeline.cellsWaits cfgs (dats m ρ) () 0 c :=
  Pipeline.cellsWaits_intro cfgs (dats m ρ) () 0 c fun w s t =>
    mayWait_low c _ (by fin_cases w <;> fin_cases s <;> decide) (by fin_cases w <;> fin_cases s <;> decide) _ (by
      rcases t with ⟨_ | _, ht⟩
      · exact Or.inl rfl
      · exact Or.inr rfl)

end Cert.KernelIdealRun

end
-- ==== Proof.KernelIdealRun.lean ====
/-
The run of the kernel on the mesh: every weakly fair execution of the eight devices' kernels — each
pair of partners greeting on the barrier semaphore, then exchanging the halves of their blocks — terminates
without a fault, and leaves on every device the input block unchanged and the result block holding the
entry-by-entry sum of the device's block and its partner's.
-/
import proofs.«900503_g7700000000000504_dist_ar_v7x_xyz2x2x2_y_m256_n256_f32_1_alg».proof.Proof.KernelIdealBody
import proofs.«900503_g7700000000000504_dist_ar_v7x_xyz2x2x2_y_m256_n256_f32_1_alg».proof.Proof.KernelIdealLaunch
import proofs.«900503_g7700000000000504_dist_ar_v7x_xyz2x2x2_y_m256_n256_f32_1_alg».proof.Proof.Gen.KernelIdeal.Points
import Idealize.ShloMosaic.Lib.Pipeline.Value

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of eight devices, for any float values, from any memory with zero counters: every weakly fair
    execution of @main terminates, and every final state has each device's arrays at the computed contents. -/
theorem run_main : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_x m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- The input array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

omit [FloatOps F] in
/-- The one block of the result window is the whole result array: reading it back reads the array. -/
theorem blk1_read (t : Fin cfg0.N) (X : (main_v1 : Ref sig .tc).ty.Contents (Elt F)) :
    ((cfg0.win (1 : Fin 2)).blk t).view.read (Elt F) X = X :=
  Memref.read_access_unit_zero (Elt F) main_v1 (funext fun a => Nat.zero_mul _) _ X

/-- The result array after the run holds the one block the one point wrote back: the sum. -/
theorem finalA_out (c : Dev nD) : finalA m ρ c (1 : Fin 2) = outAt m ρ c :=
  (dats (F := F) m ρ 0 c).arrAt_eq_of_cover (1 : Fin 2) (outAt m ρ c)
    (fun t _ => (blk1_read t (outAt m ρ c)).symm)
    (fun i => ⟨t₀, flush0_1 t₀, by
      rw [View.set_slice_whole, Rect.mem_set_unit]
      intro a
      refine ⟨?_, ?_⟩
      · show 0 * _ ≤ _; rw [Nat.zero_mul]; exact Nat.zero_le _
      · show _ < 0 * _ + _; rw [Nat.zero_mul, Nat.zero_add]; exact (i a).isLt⟩)

/-- The staged input block is the device's input array: the one block of the input window is the whole array. -/
theorem xstg_eq (c : Dev nD) : xstg m ρ c = m ((c : Thread nD τ).loc main_arg0) :=
  Memref.read_access_unit_zero (Elt F) main_arg0 (funext fun a => Nat.zero_mul _) _ _

/-- The sum, over the devices' input arrays. -/
theorem outAt_eq (c : Dev nD) :
    outAt m ρ c = addf (m ((c : Thread nD τ).loc main_arg0)) (m ((peer c : Thread nD τ).loc main_arg0)) := by
  unfold outAt; rw [xstg_eq, xstg_eq]

/-- THE RUN, with every result named: on each device the result array ends as the sum of the device's input array and
    its partner's, and the input array ends as it began. -/
theorem run : θ_run defs (onTc (τ := τ) (main (F := F))) ⟨m, fun _ => 0, ρ⟩ (fun r => ∀ c : Dev nD,
    r.2.mem ((c : Thread nD τ).loc main_v1) = addf (m ((c : Thread nD τ).loc main_arg0)) (m ((peer c : Thread nD τ).loc main_arg0))
      ∧ r.2.mem ((c : Thread nD τ).loc main_arg0) = m ((c : Thread nD τ).loc main_arg0)) :=
  (θ_run defs _ _).mono (fun r h c => ⟨(h c 1).trans ((finalA_out m ρ c).trans (outAt_eq m ρ c)), (h c 0).trans (finalA_x m ρ c)⟩) (run_main m ρ)

/-- info: 'Cert.KernelIdealRun.run' depends on axioms: [propext, Classical.choice, Quot.sound] -/
#guard_msgs in #print axioms run

end Cert.KernelIdealRun

end
-- ==== Proof.RefValue.lean ====
/-
The reference's side of the all-reduce, and the value equation that joins the two programs.

The reference takes the whole 512x256 array `A`, regroups it as two 256x256 blocks (rows 0..255 and rows
256..511) and adds them entry by entry, starting from zero: its entry (p, q) is 0 + (A[p, q] + A[256 + p, q]).
On the 2x2x2 mesh device `c` has coordinates (c / 4, c / 2 % 2, c % 2); the array is cut along its rows by the
middle coordinate, so `c` holds the row block number c / 2 % 2 and its partner on that axis holds the other
one. Hence "own block + partner's block" is A[p, q] + A[256 + p, q] on the devices of the first row block and
A[256 + p, q] + A[p, q] on those of the second: the reference's entry, by 0 + a = a and, for the second kind,
commutativity of + on the extended reals. No entry needs to be finite.
-/
import proofs.«900503_g7700000000000504_dist_ar_v7x_xyz2x2x2_y_m256_n256_f32_1_alg».proof.Proof.KernelIdealBase
import proofs.«900503_g7700000000000504_dist_ar_v7x_xyz2x2x2_y_m256_n256_f32_1_alg».proof.Proof.Gen.ReferenceIdeal.Run
import proofs.«900503_g7700000000000504_dist_ar_v7x_xyz2x2x2_y_m256_n256_f32_1_alg».proof.Proof.Gen.ReferenceIdeal.Read
import proofs.«900503_g7700000000000504_dist_ar_v7x_xyz2x2x2_y_m256_n256_f32_1_alg».proof.Defs
import Idealize.ShloMosaic.Lib.Layout
import Idealize.ShloMosaic.Lib.ValueIdx
import Idealize.ShloMosaic.PureOps.Ideal.Laws
import Mathlib.Algebra.BigOperators.Fin

noncomputable section

namespace Cert.RefValue

open Idealize.ShloMosaic Idealize.ShloMosaic.TcCoe Idealize.SL.Sem Idealize.ShloMosaic.StableHlo
open Idealize.ShloMosaic.ValueIdx
open scoped BigOperators

/-! ## The arrays and a device's block -/

/-- The contents of the reference's whole 512x256 input, and of a 256x256 block or result. -/
abbrev Whole : Type := (⟨2, ![512, 256]⟩ : Shape).Idx → EReal
abbrev Blk : Type := (⟨2, ![256, 256]⟩ : Shape).Idx → EReal

/-- What device `c` holds of the whole array `A`: the row block its coordinate on mesh axis 1 names. -/
abbrev blk (c : Dev Cert.KernelIdeal.nD) (A : Whole) : Blk :=
  Layout.blockN ⟨2, ![256, 256]⟩ ⟨2, ![512, 256]⟩ (Layout.meshBlock [2, 2, 2] ![[1], []] c) A

/-- The reference's result as one function of its input. -/
def refOut (A : Whole) : Blk := Cert.ReferenceIdeal.Read.val_main_v1 (F := Ideal) A

/-! ## The reference runs -/

/-- Every weakly fair execution of the reference terminates with its result at `refOut` of the input and the
    input unchanged. -/
theorem ref_run (m' : (ℓ : Loc Cert.ReferenceIdeal.nD Cert.ReferenceIdeal.τ Cert.ReferenceIdeal.sig) → Buf (Elt Ideal) ℓ)
    (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r =>
      r.2.mem (((0 : Dev Cert.ReferenceIdeal.nD).tc : Thread Cert.ReferenceIdeal.nD Cert.ReferenceIdeal.τ).loc Cert.ReferenceIdeal.main_v1)
          = refOut (m' (((0 : Dev Cert.ReferenceIdeal.nD).tc : Thread Cert.ReferenceIdeal.nD Cert.ReferenceIdeal.τ).loc Cert.ReferenceIdeal.main_arg0))
      ∧ r.2.mem (((0 : Dev Cert.ReferenceIdeal.nD).tc : Thread Cert.ReferenceIdeal.nD Cert.ReferenceIdeal.τ).loc Cert.ReferenceIdeal.main_arg0)
          = m' (((0 : Dev Cert.ReferenceIdeal.nD).tc : Thread Cert.ReferenceIdeal.nD Cert.ReferenceIdeal.τ).loc Cert.ReferenceIdeal.main_arg0)) :=
  (θ_run Cert.ReferenceIdeal.defs _ _).mono
    (fun _ h => ⟨(h 0).1.trans (Cert.ReferenceIdeal.Read.val_main_v1_eq (F := Ideal) _), (h 0).2⟩)
    (Cert.ReferenceIdeal.Value.run (F := Ideal) m' g')

/-- The reference runs and leaves its input unchanged, from any memory. -/
theorem ref_frame [hReferenceIdeal : Cert.ReferenceIdeal.Facts] [hPre_finite_inputs_ReferenceIdeal : Cert.Pre_finite_inputs_ReferenceIdeal.Facts] :
    ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)) :=
  fun m g _ => (θ_run Cert.ReferenceIdeal.defs _ _).mono (fun _ h c => (h c).2) (Cert.ReferenceIdeal.Value.run (F := Ideal) m g)

/-- That is the certificate's frame claim for the reference, word for word. -/
example [hReferenceIdeal : Cert.ReferenceIdeal.Facts] [hPre_finite_inputs_ReferenceIdeal : Cert.Pre_finite_inputs_ReferenceIdeal.Facts] :
    Cert.frame_ReferenceIdeal (hReferenceIdeal := hReferenceIdeal) (hPre_finite_inputs_ReferenceIdeal := hPre_finite_inputs_ReferenceIdeal) :=
  ref_frame

/-! ## Entries of the whole array by row block -/

/-- Entry (p, q) of row block `r` of the whole array: row `r * 256 + p`, column `q`. -/
def rowAt (r : Fin 2) (i : (⟨2, ![256, 256]⟩ : Shape).Idx) : (⟨2, ![512, 256]⟩ : Shape).Idx :=
  ix2 (⟨r.val * 256 + (i 0).val, by have h0 := idx2_lt0 i; have hr := r.isLt; omega⟩ : Fin 512)
      (⟨(i 1).val, idx2_lt1 i⟩ : Fin 256)

/-- The row block device `c` holds is its middle mesh coordinate. -/
theorem meshLin_rows (c : Dev Cert.KernelIdeal.nD) : Layout.meshLin [2, 2, 2] c.val [1] = c.val / 2 % 2 := by
  revert c; decide

/-- The partner holds the other row block. -/
theorem peer_rows (c : Dev Cert.KernelIdeal.nD) : (Cert.KernelIdealRun.peer c).val / 2 % 2 = 1 - c.val / 2 % 2 := by
  revert c; decide

/-- A device's block read at an index. -/
theorem blk_apply (c : Dev Cert.KernelIdeal.nD) (A : Whole) (i : (⟨2, ![256, 256]⟩ : Shape).Idx) :
    (blk c A) i = A (rowAt ⟨c.val / 2 % 2, Nat.mod_lt _ (by decide)⟩ i) := by
  show A _ = A _
  refine congrArg A (funext fun b => Fin.ext ?_)
  match b with
  | ⟨0, _⟩ =>
    show Layout.meshLin [2, 2, 2] c.val [1] * 256 + (i 0).val = c.val / 2 % 2 * 256 + (i 0).val
    rw [meshLin_rows]
  | ⟨1, _⟩ =>
    show 0 * 256 + (i 1).val = (i 1).val
    omega

/-- The reference's result read at an index: the two row blocks' entries added, the first one first. -/
theorem refOut_apply (A : Whole) (i : (⟨2, ![256, 256]⟩ : Shape).Idx) :
    refOut A i = A (rowAt 0 i) + A (rowAt 1 i) := by
  have e (k : Fin 2) : Cert.ReferenceIdeal.Read.idx_main_v0 (Cert.ReferenceIdeal.Read.idx_main_v1 i k) = rowAt k i := by
    have h0 := idx2_lt0 i
    have h1 := idx2_lt1 i
    have hk := k.isLt
    funext a
    refine Fin.ext ?_
    match a with
    | ⟨0, _⟩ =>
      show ((k.val * 256 + (i 0).val) * 256 + (i 1).val) / 256 = k.val * 256 + (i 0).val
      omega
    | ⟨1, _⟩ =>
      show ((k.val * 256 + (i 0).val) * 256 + (i 1).val) % 256 = (i 1).val
      omega
  unfold refOut
  rw [Cert.ReferenceIdeal.Read.val_main_v1_apply, Fin.sum_univ_two,
    Cert.ReferenceIdeal.Read.val_main_v0_apply, Cert.ReferenceIdeal.Read.val_main_v0_apply,
    Cert.ReferenceIdeal.Read.val_main_cst_apply, e 0, e 1, Ideal.ofBits_def, Ideal.ofBits_zero_f32]
  exact zero_add _

/-! ## The value equation -/

/-- On every device, its own block plus its partner's is the reference's result. -/
theorem value_eq (A : Whole) (c : Dev Cert.KernelIdeal.nD) :
    addf (F := Ideal) (s := ⟨2, ![256, 256]⟩) (φ := .f32) (blk c A) (blk (Cert.KernelIdealRun.peer c) A) = refOut A := by
  funext i
  rw [addf_apply, blk_apply, blk_apply, refOut_apply]
  have hp := peer_rows c
  rcases Nat.mod_two_eq_zero_or_one (c.val / 2) with h | h
  · have e0 : (⟨c.val / 2 % 2, Nat.mod_lt _ (by decide)⟩ : Fin 2) = 0 := Fin.ext h
    have e1 : (⟨(Cert.KernelIdealRun.peer c).val / 2 % 2, Nat.mod_lt _ (by decide)⟩ : Fin 2) = 1 :=
      Fin.ext (by show (Cert.KernelIdealRun.peer c).val / 2 % 2 = 1; omega)
    rw [e0, e1]
  · have e0 : (⟨c.val / 2 % 2, Nat.mod_lt _ (by decide)⟩ : Fin 2) = 1 := Fin.ext h
    have e1 : (⟨(Cert.KernelIdealRun.peer c).val / 2 % 2, Nat.mod_lt _ (by decide)⟩ : Fin 2) = 0 :=
      Fin.ext (by show (Cert.KernelIdealRun.peer c).val / 2 % 2 = 0; omega)
    rw [e0, e1]
    exact add_comm (G := EReal) _ _

/-- info: 'Cert.RefValue.value_eq' depends on axioms: [propext, Classical.choice, Quot.sound] -/
#guard_msgs in #print axioms value_eq
/-- info: 'Cert.RefValue.ref_run' depends on axioms: [propext, Classical.choice, Quot.sound] -/
#guard_msgs in #print axioms ref_run

end Cert.RefValue

end
-- ==== Proof.lean ====
/- The all-reduce over mesh axis y, certified.

   Eight devices on a 2x2x2 mesh each hold a 256x256 block of a 512x256 array cut along its rows by the
   middle mesh coordinate. Each device greets its partner — the device whose middle coordinate is flipped —
   on the barrier semaphore, copies the two halves of its block into the partner's landing buffer, and
   stores, half by half, its own half plus the half that landed. So every device ends with the sum of the
   two row blocks, which is what the one-device reference computes from the whole array (the sum over the
   leading axis of the array regrouped as 2x256x256, started from zero): 0 + a = a, and the devices that
   hold the second row block add the blocks in the other order, which commutativity of + on the extended
   reals absorbs. No entry needs to be finite: the precondition is never opened.

   The three frames are the runs with the values dropped (the kernel's run is proved once for any float
   instance and read at the word level and at the ideal level); the idealization rewrote no operation, so
   preserves is trivial; algebraic is the ideal-level run joined to the reference's run by the value
   equation. -/
import proofs.«900503_g7700000000000504_dist_ar_v7x_xyz2x2x2_y_m256_n256_f32_1_alg».proof.Defs
import proofs.«900503_g7700000000000504_dist_ar_v7x_xyz2x2x2_y_m256_n256_f32_1_alg».proof.Proof.Gen.Kernel
import proofs.«900503_g7700000000000504_dist_ar_v7x_xyz2x2x2_y_m256_n256_f32_1_alg».proof.Proof.Gen.Kernel.Skeleton
import proofs.«900503_g7700000000000504_dist_ar_v7x_xyz2x2x2_y_m256_n256_f32_1_alg».proof.Proof.Gen.Kernel.Launch
import proofs.«900503_g7700000000000504_dist_ar_v7x_xyz2x2x2_y_m256_n256_f32_1_alg».proof.Proof.Gen.Kernel.Points
import proofs.«900503_g7700000000000504_dist_ar_v7x_xyz2x2x2_y_m256_n256_f32_1_alg».proof.Proof.Gen.Kernel.Frame
import proofs.«900503_g7700000000000504_dist_ar_v7x_xyz2x2x2_y_m256_n256_f32_1_alg».proof.Proof.Gen.KernelIdeal
import proofs.«900503_g7700000000000504_dist_ar_v7x_xyz2x2x2_y_m256_n256_f32_1_alg».proof.Proof.Gen.KernelIdeal.Skeleton
import proofs.«900503_g7700000000000504_dist_ar_v7x_xyz2x2x2_y_m256_n256_f32_1_alg».proof.Proof.Gen.KernelIdeal.Launch
import proofs.«900503_g7700000000000504_dist_ar_v7x_xyz2x2x2_y_m256_n256_f32_1_alg».proof.Proof.Gen.KernelIdeal.Points
import proofs.«900503_g7700000000000504_dist_ar_v7x_xyz2x2x2_y_m256_n256_f32_1_alg».proof.Proof.Gen.KernelIdeal.Frame
import proofs.«900503_g7700000000000504_dist_ar_v7x_xyz2x2x2_y_m256_n256_f32_1_alg».proof.Proof.Gen.ReferenceIdeal
import proofs.«900503_g7700000000000504_dist_ar_v7x_xyz2x2x2_y_m256_n256_f32_1_alg».proof.Proof.Gen.Pre_finite_inputs_Kernel
import proofs.«900503_g7700000000000504_dist_ar_v7x_xyz2x2x2_y_m256_n256_f32_1_alg».proof.Proof.Gen.Pre_finite_inputs_ReferenceIdeal
import proofs.«900503_g7700000000000504_dist_ar_v7x_xyz2x2x2_y_m256_n256_f32_1_alg».proof.Proof.KernelRun
import proofs.«900503_g7700000000000504_dist_ar_v7x_xyz2x2x2_y_m256_n256_f32_1_alg».proof.Proof.KernelIdealRun
import proofs.«900503_g7700000000000504_dist_ar_v7x_xyz2x2x2_y_m256_n256_f32_1_alg».proof.Proof.RefValue
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  -- the word-level kernel runs and keeps its input
  fun m g _ => (θ_run Cert.Kernel.defs _ _).mono (fun _ h c => (h c).2) (Cert.KernelRun.run (F := Bits) m g),
  -- the idealized kernel runs and keeps its input
  fun m g _ => (θ_run Cert.KernelIdeal.defs _ _).mono (fun _ h c => (h c).2) (Cert.KernelIdealRun.run (F := Ideal) m g),
  -- the reference runs and keeps its input
  Cert.RefValue.ref_frame,
  -- the idealization rewrote nothing
  trivial,
  -- both end with the reference's result: own block + partner's block is the sum of the two row blocks
  fun m g m' g' _ hagree =>
    ⟨Cert.RefValue.refOut (m' (((0 : Dev Cert.ReferenceIdeal.nD).tc : Thread Cert.ReferenceIdeal.nD Cert.ReferenceIdeal.τ).loc Cert.ReferenceIdeal.main_arg0)),
      (θ_run Cert.KernelIdeal.defs _ _).mono
        (fun _ h c => ⟨by
            rw [(h c).1, hagree c, hagree (Cert.KernelIdealRun.peer c)]
            exact Cert.RefValue.value_eq _ c, (h c).2⟩)
        (Cert.KernelIdealRun.run (F := Ideal) m g),
      Cert.RefValue.ref_run m' g'⟩⟩

end Cert.Proof

end
